-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x48x16x5 : Shape := ⟨4, ![8, 48, 16, 5]⟩
abbrev S_ : Shape := ⟨0, ![]⟩

class Facts : Prop where
  bcast_S_S8x48x16x5 : S_.BroadcastsInDim S8x48x16x5 (![] : Fin 0 → Fin S8x48x16x5.rank)
  reducesTo_S8x48x16x5_S_d0_1_2_3 : S8x48x16x5.ReducesTo [0, 1, 2, 3] S_
  h_S_ : 0 < S_.numel

variable [Facts]

def fn {F : FTy → Type} [FloatOps F] (main_arg0 : FVec F S8x48x16x5 .f32) (main_arg1 : FVec F S8x48x16x5 .f32) : IVec S_ 1 :=
  let main_v0 : FVec F S8x48x16x5 .f32 := Host.absf main_arg0
  let main_cst : FVec F S_ .f32 := constant S_ .f32 0x7F800000#32
  let main_v1 : FVec F S8x48x16x5 .f32 := broadcastInDim S8x48x16x5 ![] bcast_S_S8x48x16x5 main_cst
  let main_v2 : IVec S8x48x16x5 1 := cmpf .olt main_v0 main_v1
  let main_c : IVec S_ 1 := constantI S_ 1 1#1
  let main_v3 : IVec S_ 1 := (fun x v => Host.reduce IntOp.andi x v reducesTo_S8x48x16x5_S_d0_1_2_3 h_S_) main_v2 main_c
  let main_v4 : FVec F S8x48x16x5 .f32 := Host.absf main_arg1
  let main_cst_0 : FVec F S_ .f32 := constant S_ .f32 0x7F800000#32
  let main_v5 : FVec F S8x48x16x5 .f32 := broadcastInDim S8x48x16x5 ![] bcast_S_S8x48x16x5 main_cst_0
  let main_v6 : IVec S8x48x16x5 1 := cmpf .olt main_v4 main_v5
  let main_c_1 : IVec S_ 1 := constantI S_ 1 1#1
  let main_v7 : IVec S_ 1 := (fun x v => Host.reduce IntOp.andi x v reducesTo_S8x48x16x5_S_d0_1_2_3 h_S_) main_v6 main_c_1
  let main_v8 : IVec S_ 1 := andi main_v3 main_v7
  main_v8
-- ==== Kernel.lean ====
abbrev S8x48x16x5 : Shape := ⟨4, ![8, 48, 16, 5]⟩
abbrev S37 : Shape := ⟨1, ![37]⟩
abbrev S37x1 : Shape := ⟨2, ![37, 1]⟩
abbrev S12 : Shape := ⟨1, ![12]⟩
abbrev S1x12 : Shape := ⟨2, ![1, 12]⟩
abbrev S37x12 : Shape := ⟨2, ![37, 12]⟩
abbrev S12x1 : Shape := ⟨2, ![12, 1]⟩
abbrev S5 : Shape := ⟨1, ![5]⟩
abbrev S1x5 : Shape := ⟨2, ![1, 5]⟩
abbrev S12x5 : Shape := ⟨2, ![12, 5]⟩
abbrev S37x1x12x1 : Shape := ⟨4, ![37, 1, 12, 1]⟩
abbrev S1x12x1x5 : Shape := ⟨4, ![1, 12, 1, 5]⟩
abbrev S_ : Shape := ⟨0, ![]⟩
abbrev S37x12x12x5 : Shape := ⟨4, ![37, 12, 12, 5]⟩
abbrev S37x12x12x5x1 : Shape := ⟨5, ![37, 12, 12, 5, 1]⟩
abbrev S37x12x12x5x2 : Shape := ⟨5, ![37, 12, 12, 5, 2]⟩
abbrev S8x37x12x12x5x5 : Shape := ⟨6, ![8, 37, 12, 12, 5, 5]⟩
abbrev S8x5x37x12x12x5 : Shape := ⟨6, ![8, 5, 37, 12, 12, 5]⟩
abbrev S8x2220x60 : Shape := ⟨3, ![8, 2220, 60]⟩
abbrev S8x2560x60 : Shape := ⟨3, ![8, 2560, 60]⟩
abbrev S8x2220x2560 : Shape := ⟨3, ![8, 2220, 2560]⟩
abbrev S1x2220x60 : Shape := ⟨3, ![1, 2220, 60]⟩
abbrev S1x512x60 : Shape := ⟨3, ![1, 512, 60]⟩
abbrev S1x2220x512 : Shape := ⟨3, ![1, 2220, 512]⟩
abbrev S2220x60 : Shape := ⟨2, ![2220, 60]⟩
abbrev S512x60 : Shape := ⟨2, ![512, 60]⟩
abbrev S2220 : Shape := ⟨1, ![2220]⟩
abbrev S2220x1 : Shape := ⟨2, ![2220, 1]⟩
abbrev S512 : Shape := ⟨1, ![512]⟩
abbrev S512x1 : Shape := ⟨2, ![512, 1]⟩
abbrev S2220x512 : Shape := ⟨2, ![2220, 512]⟩
abbrev S8x2220x2220 : Shape := ⟨3, ![8, 2220, 2220]⟩
abbrev S296x37x12x300 : Shape := ⟨4, ![296, 37, 12, 300]⟩

abbrev nBuf : Space → Nat
  | .hbm => 84
  | .vmem => 6
  | .smem => 0
  | _ => 0

abbrev bufTy : (tb : Table) → Fin (tcTables nBuf tb) → BufTy
  | .hbm, ⟨0, _⟩ => ⟨S8x48x16x5, .f32⟩
  | .hbm, ⟨1, _⟩ => ⟨S8x48x16x5, .f32⟩
  | .hbm, ⟨2, _⟩ => ⟨S37, .i32⟩
  | .hbm, ⟨3, _⟩ => ⟨S37x1, .i32⟩
  | .hbm, ⟨4, _⟩ => ⟨S12, .i32⟩
  | .hbm, ⟨5, _⟩ => ⟨S1x12, .i32⟩
  | .hbm, ⟨6, _⟩ => ⟨S37x12, .i32⟩
  | .hbm, ⟨7, _⟩ => ⟨S37x12, .i32⟩
  | .hbm, ⟨8, _⟩ => ⟨S37x12, .i32⟩
  | .hbm, ⟨9, _⟩ => ⟨S12, .i32⟩
  | .hbm, ⟨10, _⟩ => ⟨S12x1, .i32⟩
  | .hbm, ⟨11, _⟩ => ⟨S5, .i32⟩
  | .hbm, ⟨12, _⟩ => ⟨S1x5, .i32⟩
  | .hbm, ⟨13, _⟩ => ⟨S12x5, .i32⟩
  | .hbm, ⟨14, _⟩ => ⟨S12x5, .i32⟩
  | .hbm, ⟨15, _⟩ => ⟨S12x5, .i32⟩
  | .hbm, ⟨16, _⟩ => ⟨S37x1x12x1, .i32⟩
  | .hbm, ⟨17, _⟩ => ⟨S1x12x1x5, .i32⟩
  | .hbm, ⟨18, _⟩ => ⟨S_, .i32⟩
  | .hbm, ⟨19, _⟩ => ⟨S37x1x12x1, .i32⟩
  | .hbm, ⟨20, _⟩ => ⟨S37x1x12x1, .i1⟩
  | .hbm, ⟨21, _⟩ => ⟨S_, .i32⟩
  | .hbm, ⟨22, _⟩ => ⟨S37x1x12x1, .i32⟩
  | .hbm, ⟨23, _⟩ => ⟨S37x1x12x1, .i32⟩
  | .hbm, ⟨24, _⟩ => ⟨S37x1x12x1, .i32⟩
  | .hbm, ⟨25, _⟩ => ⟨S_, .i32⟩
  | .hbm, ⟨26, _⟩ => ⟨S1x12x1x5, .i32⟩
  | .hbm, ⟨27, _⟩ => ⟨S1x12x1x5, .i1⟩
  | .hbm, ⟨28, _⟩ => ⟨S_, .i32⟩
  | .hbm, ⟨29, _⟩ => ⟨S1x12x1x5, .i32⟩
  | .hbm, ⟨30, _⟩ => ⟨S1x12x1x5, .i32⟩
  | .hbm, ⟨31, _⟩ => ⟨S1x12x1x5, .i32⟩
  | .hbm, ⟨32, _⟩ => ⟨S37x12x12x5, .i32⟩
  | .hbm, ⟨33, _⟩ => ⟨S37x12x12x5, .i32⟩
  | .hbm, ⟨34, _⟩ => ⟨S37x12x12x5x1, .i32⟩
  | .hbm, ⟨35, _⟩ => ⟨S37x12x12x5x1, .i32⟩
  | .hbm, ⟨36, _⟩ => ⟨S37x12x12x5x2, .i32⟩
  | .hbm, ⟨37, _⟩ => ⟨S8x37x12x12x5x5, .f32⟩
  | .hbm, ⟨38, _⟩ => ⟨S8x5x37x12x12x5, .f32⟩
  | .hbm, ⟨39, _⟩ => ⟨S8x2220x60, .f32⟩
  | .hbm, ⟨40, _⟩ => ⟨S37, .i32⟩
  | .hbm, ⟨41, _⟩ => ⟨S37x1, .i32⟩
  | .hbm, ⟨42, _⟩ => ⟨S12, .i32⟩
  | .hbm, ⟨43, _⟩ => ⟨S1x12, .i32⟩
  | .hbm, ⟨44, _⟩ => ⟨S37x12, .i32⟩
  | .hbm, ⟨45, _⟩ => ⟨S37x12, .i32⟩
  | .hbm, ⟨46, _⟩ => ⟨S37x12, .i32⟩
  | .hbm, ⟨47, _⟩ => ⟨S12, .i32⟩
  | .hbm, ⟨48, _⟩ => ⟨S12x1, .i32⟩
  | .hbm, ⟨49, _⟩ => ⟨S5, .i32⟩
  | .hbm, ⟨50, _⟩ => ⟨S1x5, .i32⟩
  | .hbm, ⟨51, _⟩ => ⟨S12x5, .i32⟩
  | .hbm, ⟨52, _⟩ => ⟨S12x5, .i32⟩
  | .hbm, ⟨53, _⟩ => ⟨S12x5, .i32⟩
  | .hbm, ⟨54, _⟩ => ⟨S37x1x12x1, .i32⟩
  | .hbm, ⟨55, _⟩ => ⟨S1x12x1x5, .i32⟩
  | .hbm, ⟨56, _⟩ => ⟨S_, .i32⟩
  | .hbm, ⟨57, _⟩ => ⟨S37x1x12x1, .i32⟩
  | .hbm, ⟨58, _⟩ => ⟨S37x1x12x1, .i1⟩
  | .hbm, ⟨59, _⟩ => ⟨S_, .i32⟩
  | .hbm, ⟨60, _⟩ => ⟨S37x1x12x1, .i32⟩
  | .hbm, ⟨61, _⟩ => ⟨S37x1x12x1, .i32⟩
  | .hbm, ⟨62, _⟩ => ⟨S37x1x12x1, .i32⟩
  | .hbm, ⟨63, _⟩ => ⟨S_, .i32⟩
  | .hbm, ⟨64, _⟩ => ⟨S1x12x1x5, .i32⟩
  | .hbm, ⟨65, _⟩ => ⟨S1x12x1x5, .i1⟩
  | .hbm, ⟨66, _⟩ => ⟨S_, .i32⟩
  | .hbm, ⟨67, _⟩ => ⟨S1x12x1x5, .i32⟩
  | .hbm, ⟨68, _⟩ => ⟨S1x12x1x5, .i32⟩
  | .hbm, ⟨69, _⟩ => ⟨S1x12x1x5, .i32⟩
  | .hbm, ⟨70, _⟩ => ⟨S37x12x12x5, .i32⟩
  | .hbm, ⟨71, _⟩ => ⟨S37x12x12x5, .i32⟩
  | .hbm, ⟨72, _⟩ => ⟨S37x12x12x5x1, .i32⟩
  | .hbm, ⟨73, _⟩ => ⟨S37x12x12x5x1, .i32⟩
  | .hbm, ⟨74, _⟩ => ⟨S37x12x12x5x2, .i32⟩
  | .hbm, ⟨75, _⟩ => ⟨S8x37x12x12x5x5, .f32⟩
  | .hbm, ⟨76, _⟩ => ⟨S8x5x37x12x12x5, .f32⟩
  | .hbm, ⟨77, _⟩ => ⟨S8x2220x60, .f32⟩
  | .hbm, ⟨78, _⟩ => ⟨S_, .i32⟩
  | .hbm, ⟨79, _⟩ => ⟨S_, .f32⟩
  | .hbm, ⟨80, _⟩ => ⟨S8x2560x60, .f32⟩
  | .hbm, ⟨81, _⟩ => ⟨S8x2220x2560, .f32⟩
  | .hbm, ⟨82, _⟩ => ⟨S8x2220x2220, .f32⟩
  | .hbm, ⟨83, _⟩ => ⟨S296x37x12x300, .f32⟩
  | .local _ .vmem, ⟨0, _⟩ => ⟨S1x2220x60, .f32⟩
  | .local _ .vmem, ⟨1, _⟩ => ⟨S1x2220x60, .f32⟩
  | .local _ .vmem, ⟨2, _⟩ => ⟨S1x512x60, .f32⟩
  | .local _ .vmem, ⟨3, _⟩ => ⟨S1x512x60, .f32⟩
  | .local _ .vmem, ⟨4, _⟩ => ⟨S1x2220x512, .f32⟩
  | .local _ .vmem, ⟨5, _⟩ => ⟨S1x2220x512, .f32⟩
  | _, _ => ⟨S8x48x16x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_3 : Ref sig .tc := ⟨.hbm, 56, rfl⟩
abbrev main_v50 : Ref sig .tc := ⟨.hbm, 57, rfl⟩
abbrev main_v51 : Ref sig .tc := ⟨.hbm, 58, rfl⟩
abbrev main_c_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_c_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_c_7 : Ref sig .tc := ⟨.hbm, 78, rfl⟩
abbrev main_call0_v0 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2220x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2220x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S37_S37x1_0 : S37.BroadcastsInDim S37x1 (![0] : Fin 1 → Fin S37x1.rank)
  bcast_S12_S1x12_1 : S12.BroadcastsInDim S1x12 (![1] : Fin 1 → Fin S1x12.rank)
  bcast_S37x1_S37x12_0_1 : S37x1.BroadcastsInDim S37x12 (![0, 1] : Fin 2 → Fin S37x12.rank)
  bcast_S1x12_S37x12_0_1 : S1x12.BroadcastsInDim S37x12 (![0, 1] : Fin 2 → Fin S37x12.rank)
  bcast_S12_S12x1_0 : S12.BroadcastsInDim S12x1 (![0] : Fin 1 → Fin S12x1.rank)
  bcast_S5_S1x5_1 : S5.BroadcastsInDim S1x5 (![1] : Fin 1 → Fin S1x5.rank)
  bcast_S12x1_S12x5_0_1 : S12x1.BroadcastsInDim S12x5 (![0, 1] : Fin 2 → Fin S12x5.rank)
  bcast_S1x5_S12x5_0_1 : S1x5.BroadcastsInDim S12x5 (![0, 1] : Fin 2 → Fin S12x5.rank)
  bcast_S37x12_S37x1x12x1_0_2 : S37x12.BroadcastsInDim S37x1x12x1 (![0, 2] : Fin 2 → Fin S37x1x12x1.rank)
  bcast_S12x5_S1x12x1x5_1_3 : S12x5.BroadcastsInDim S1x12x1x5 (![1, 3] : Fin 2 → Fin S1x12x1x5.rank)
  bcast_S_S37x1x12x1 : S_.BroadcastsInDim S37x1x12x1 (![] : Fin 0 → Fin S37x1x12x1.rank)
  bcast_S_S1x12x1x5 : S_.BroadcastsInDim S1x12x1x5 (![] : Fin 0 → Fin S1x12x1x5.rank)
  bcast_S37x1x12x1_S37x12x12x5_0_1_2_3 : S37x1x12x1.BroadcastsInDim S37x12x12x5 (![0, 1, 2, 3] : Fin 4 → Fin S37x12x12x5.rank)
  bcast_S1x12x1x5_S37x12x12x5_0_1_2_3 : S1x12x1x5.BroadcastsInDim S37x12x12x5 (![0, 1, 2, 3] : Fin 4 → Fin S37x12x12x5.rank)
  bcast_S37x12x12x5_S37x12x12x5x1_0_1_2_3 : S37x12x12x5.BroadcastsInDim S37x12x12x5x1 (![0, 1, 2, 3] : Fin 4 → Fin S37x12x12x5x1.rank)
  concatenates_S37x12x12x5x1_S37x12x12x5x1_S37x12x12x5x2_d4 : Shape.Concatenates [S37x12x12x5x1, S37x12x12x5x1] S37x12x12x5x2 4
  transposes_S8x37x12x12x5x5_S8x5x37x12x12x5_0_5_1_2_3_4 : S8x37x12x12x5x5.Transposes [0, 5, 1, 2, 3, 4] S8x5x37x12x12x5
  shapeCasts_S8x5x37x12x12x5_S8x2220x60 : S8x5x37x12x12x5.ShapeCasts S8x2220x60
  pads_S8x2220x60_S8x2560x60_000_03400_000 : S8x2220x60.Pads (![0, 0, 0] : Fin 3 → Nat) ![0, 340, 0] ![0, 0, 0] S8x2560x60
  h_S_ : 0 < S_.numel
  inb_S1x2220x60_S1x2220x60_0_0_0 : ∀ a, (![0, 0, 0] : Fin 3 → Nat) a + S1x2220x60.size a ≤ S1x2220x60.size a
  h_S1x2220x60 : 0 < S1x2220x60.numel
  shapeCasts_S1x2220x60_S2220x60 : S1x2220x60.ShapeCasts S2220x60
  inb_S1x512x60_S1x512x60_0_0_0 : ∀ a, (![0, 0, 0] : Fin 3 → Nat) a + S1x512x60.size a ≤ S1x512x60.size a
  h_S1x512x60 : 0 < S1x512x60.numel
  shapeCasts_S1x512x60_S512x60 : S1x512x60.ShapeCasts S512x60
  reduces_S2220x60_S2220 : S2220x60.Reduces [1] S2220
  shapeCasts_S2220_S2220x1 : S2220.ShapeCasts S2220x1
  broadcasts_S2220x1_S2220x60 : S2220x1.Broadcasts S2220x60
  reduces_S512x60_S512 : S512x60.Reduces [1] S512
  shapeCasts_S512_S512x1 : S512.ShapeCasts S512x1
  broadcasts_S512x1_S512x60 : S512x1.Broadcasts S512x60
  bitsLt_bf16_f32 : FTy.bits .bf16 < FTy.bits .f32
  inb_S1x2220x512_S1x2220x512_0_0_0 : ∀ a, (![0, 0, 0] : Fin 3 → Nat) a + S1x2220x512.size a ≤ S1x2220x512.size a
  h_S1x2220x512 : 0 < S1x2220x512.numel
  shapeCasts_S1x2220x512_S2220x512 : S1x2220x512.ShapeCasts S2220x512
  shapeCasts_S2220x512_S1x2220x512 : S2220x512.ShapeCasts S1x2220x512
  slices_S8x2220x2560_S8x2220x2220_0_0_0 : S8x2220x2560.Slices ![0, 0, 0] S8x2220x2220
  shapeCasts_S8x2220x2220_S296x37x12x300 : S8x2220x2220.ShapeCasts S296x37x12x300
  gather_S8x48x16x5_S37x12x12x5x2_S8x37x12x12x5x5_05_12_n_n_12_4_8115_wf : GatherDims.WF S8x48x16x5 S37x12x12x5x2 S8x37x12x12x5x5 [0, 5] [1, 2] [] [1, 2] [] 4 ![8, 1, 1, 5]
  dot_S2220x60_S512x60_S2220x512_1_1_0_0_n_n_wf : DotDims.WF S2220x60 S512x60 S2220x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2220x60.size a ≤ S8x2220x60.size a
  hwx0_0 : ∀ i : grid0.Coords, EltTy.bits .f32 = 32 ∨ (Rect.block (s := S8x2220x60) S1x2220x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x60.size a ≤ S8x2560x60.size a
  hwx0_1 : ∀ i : grid0.Coords, EltTy.bits .f32 = 32 ∨ (Rect.block (s := S8x2560x60) S1x512x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2220x512.size a ≤ S8x2220x2560.size a
  hwx0_2 : ∀ i : grid0.Coords, EltTy.bits .f32 = 32 ∨ (Rect.block (s := S8x2220x2560) S1x2220x512.size (cc0_transform_2 i) (hinb0_2 i)).WholeWords (EltTy.packing .f32)

variable [Facts₀]

def gather_S8x48x16x5_S37x12x12x5x2_S8x37x12x12x5x5_05_12_n_n_12_4_8115 : GatherDims S8x48x16x5 S37x12x12x5x2 S8x37x12x12x5x5 where
  offsetDims := [0, 5]
  collapsedSliceDims := [1, 2]
  operandBatchingDims := []
  startIndicesBatchingDims := []
  startIndexMap := [1, 2]
  indexVectorDim := 4
  sliceSizes := ![8, 1, 1, 5]
  wf := gather_S8x48x16x5_S37x12x12x5x2_S8x37x12x12x5x5_05_12_n_n_12_4_8115_wf
def dot_S2220x60_S512x60_S2220x512_1_1_0_0_n_n : DotDims S2220x60 S512x60 S2220x512 where
  lhsContracting := [1]
  rhsContracting := [1]
  lhsNonContracting := [0]
  rhsNonContracting := [0]
  lhsBatch := []
  rhsBatch := []
  wf := dot_S2220x60_S512x60_S2220x512_1_1_0_0_n_n_wf

abbrev win0_0 : Pipeline.Window sig grid0 :=
  Pipeline.Window.ofSpec (Memref.whole main_v67) S1x2220x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S1x512x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x2220x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x48x16x5 : Shape := ⟨4, ![8, 48, 16, 5]⟩
abbrev S37 : Shape := ⟨1, ![37]⟩
abbrev S37x1 : Shape := ⟨2, ![37, 1]⟩
abbrev S12 : Shape := ⟨1, ![12]⟩
abbrev S1x12 : Shape := ⟨2, ![1, 12]⟩
abbrev S37x12 : Shape := ⟨2, ![37, 12]⟩
abbrev S12x1 : Shape := ⟨2, ![12, 1]⟩
abbrev S5 : Shape := ⟨1, ![5]⟩
abbrev S1x5 : Shape := ⟨2, ![1, 5]⟩
abbrev S12x5 : Shape := ⟨2, ![12, 5]⟩
abbrev S37x1x12x1 : Shape := ⟨4, ![37, 1, 12, 1]⟩
abbrev S1x12x1x5 : Shape := ⟨4, ![1, 12, 1, 5]⟩
abbrev S_ : Shape := ⟨0, ![]⟩
abbrev S37x12x12x5 : Shape := ⟨4, ![37, 12, 12, 5]⟩
abbrev S37x12x12x5x1 : Shape := ⟨5, ![37, 12, 12, 5, 1]⟩
abbrev S37x12x12x5x2 : Shape := ⟨5, ![37, 12, 12, 5, 2]⟩
abbrev S8x37x12x12x5x5 : Shape := ⟨6, ![8, 37, 12, 12, 5, 5]⟩
abbrev S8x5x37x12x12x5 : Shape := ⟨6, ![8, 5, 37, 12, 12, 5]⟩
abbrev S8x2220x60 : Shape := ⟨3, ![8, 2220, 60]⟩
abbrev S8x2220 : Shape := ⟨2, ![8, 2220]⟩
abbrev S8x2220x1 : Shape := ⟨3, ![8, 2220, 1]⟩
abbrev S8x2220x2220 : Shape := ⟨3, ![8, 2220, 2220]⟩
abbrev S296x37x12x300 : Shape := ⟨4, ![296, 37, 12, 300]⟩

abbrev nBuf : Space → Nat
  | .hbm => 150
  | .vmem => 0
  | .smem => 0
  | _ => 0

abbrev hbmTy0_0 (i : Nat) : BufTy := match i % 128 with
  | 0 => ⟨S8x48x16x5, .f32⟩
  | 1 => ⟨S8x48x16x5, .f32⟩
  | 2 => ⟨S37, .i32⟩
  | 3 => ⟨S37x1, .i32⟩
  | 4 => ⟨S12, .i32⟩
  | 5 => ⟨S1x12, .i32⟩
  | 6 => ⟨S37x12, .i32⟩
  | 7 => ⟨S37x12, .i32⟩
  | 8 => ⟨S37x12, .i32⟩
  | 9 => ⟨S12, .i32⟩
  | 10 => ⟨S12x1, .i32⟩
  | 11 => ⟨S5, .i32⟩
  | 12 => ⟨S1x5, .i32⟩
  | 13 => ⟨S12x5, .i32⟩
  | 14 => ⟨S12x5, .i32⟩
  | 15 => ⟨S12x5, .i32⟩
  | 16 => ⟨S37x1x12x1, .i32⟩
  | 17 => ⟨S1x12x1x5, .i32⟩
  | 18 => ⟨S_, .i32⟩
  | 19 => ⟨S37x1x12x1, .i32⟩
  | 20 => ⟨S37x1x12x1, .i1⟩
  | 21 => ⟨S_, .i32⟩
  | 22 => ⟨S37x1x12x1, .i32⟩
  | 23 => ⟨S37x1x12x1, .i32⟩
  | 24 => ⟨S37x1x12x1, .i32⟩
  | 25 => ⟨S_, .i32⟩
  | 26 => ⟨S1x12x1x5, .i32⟩
  | 27 => ⟨S1x12x1x5, .i1⟩
  | 28 => ⟨S_, .i32⟩
  | 29 => ⟨S1x12x1x5, .i32⟩
  | 30 => ⟨S1x12x1x5, .i32⟩
  | 31 => ⟨S1x12x1x5, .i32⟩
  | 32 => ⟨S37x12x12x5, .i32⟩
  | 33 => ⟨S37x12x12x5, .i32⟩
  | 34 => ⟨S37x12x12x5x1, .i32⟩
  | 35 => ⟨S37x12x12x5x1, .i32⟩
  | 36 => ⟨S37x12x12x5x2, .i32⟩
  | 37 => ⟨S8x37x12x12x5x5, .f32⟩
  | 38 => ⟨S8x5x37x12x12x5, .f32⟩
  | 39 => ⟨S8x2220x60, .f32⟩
  | 40 => ⟨S37, .i32⟩
  | 41 => ⟨S37x1, .i32⟩
  | 42 => ⟨S12, .i32⟩
  | 43 => ⟨S1x12, .i32⟩
  | 44 => ⟨S37x12, .i32⟩
  | 45 => ⟨S37x12, .i32⟩
  | 46 => ⟨S37x12, .i32⟩
  | 47 => ⟨S12, .i32⟩
  | 48 => ⟨S12x1, .i32⟩
  | 49 => ⟨S5, .i32⟩
  | 50 => ⟨S1x5, .i32⟩
  | 51 => ⟨S12x5, .i32⟩
  | 52 => ⟨S12x5, .i32⟩
  | 53 => ⟨S12x5, .i32⟩
  | 54 => ⟨S37x1x12x1, .i32⟩
  | 55 => ⟨S1x12x1x5, .i32⟩
  | 56 => ⟨S_, .i32⟩
  | 57 => ⟨S37x1x12x1, .i32⟩
  | 58 => ⟨S37x1x12x1, .i1⟩
  | 59 => ⟨S_, .i32⟩
  | 60 => ⟨S37x1x12x1, .i32⟩
  | 61 => ⟨S37x1x12x1, .i32⟩
  | 62 => ⟨S37x1x12x1, .i32⟩
  | 63 => ⟨S_, .i32⟩
  | 64 => ⟨S1x12x1x5, .i32⟩
  | 65 => ⟨S1x12x1x5, .i1⟩
  | 66 => ⟨S_, .i32⟩
  | 67 => ⟨S1x12x1x5, .i32⟩
  | 68 => ⟨S1x12x1x5, .i32⟩
  | 69 => ⟨S1x12x1x5, .i32⟩
  | 70 => ⟨S37x12x12x5, .i32⟩
  | 71 => ⟨S37x12x12x5, .i32⟩
  | 72 => ⟨S37x12x12x5x1, .i32⟩
  | 73 => ⟨S37x12x12x5x1, .i32⟩
  | 74 => ⟨S37x12x12x5x2, .i32⟩
  | 75 => ⟨S8x37x12x12x5x5, .f32⟩
  | 76 => ⟨S8x5x37x12x12x5, .f32⟩
  | 77 => ⟨S8x2220x60, .f32⟩
  | 78 => ⟨S_, .f32⟩
  | 79 => ⟨S8x2220, .f32⟩
  | 80 => ⟨S8x2220x1, .f32⟩
  | 81 => ⟨S_, .f32⟩
  | 82 => ⟨S8x2220x1, .f32⟩
  | 83 => ⟨S8x2220x1, .f32⟩
  | 84 => ⟨S_, .i32⟩
  | 85 => ⟨S_, .f32⟩
  | 86 => ⟨S8x2220, .f32⟩
  | 87 => ⟨S8x2220x1, .f32⟩
  | 88 => ⟨S_, .f32⟩
  | 89 => ⟨S8x2220x1, .f32⟩
  | 90 => ⟨S8x2220x1, .f32⟩
  | 91 => ⟨S8x2220x60, .f32⟩
  | 92 => ⟨S8x2220x60, .f32⟩
  | 93 => ⟨S8x2220x60, .f32⟩
  | 94 => ⟨S_, .f32⟩
  | 95 => ⟨S_, .f32⟩
  | 96 => ⟨S_, .f32⟩
  | 97 => ⟨S_, .f32⟩
  | 98 => ⟨S8x2220, .f32⟩
  | 99 => ⟨S8x2220x1, .f32⟩
  | 100 => ⟨S8x2220x1, .f32⟩
  | 101 => ⟨S8x2220x1, .f32⟩
  | 102 => ⟨S_, .f32⟩
  | 103 => ⟨S_, .i1⟩
  | 104 => ⟨S_, .f32⟩
  | 105 => ⟨S_, .f32⟩
  | 106 => ⟨S8x2220x1, .f32⟩
  | 107 => ⟨S8x2220x1, .f32⟩
  | 108 => ⟨S8x2220x1, .f32⟩
  | 109 => ⟨S8x2220x60, .f32⟩
  | 110 => ⟨S8x2220x60, .f32⟩
  | 111 => ⟨S8x2220x60, .f32⟩
  | 112 => ⟨S8x2220x60, .f32⟩
  | 113 => ⟨S_, .f32⟩
  | 114 => ⟨S8x2220, .f32⟩
  | 115 => ⟨S8x2220x1, .f32⟩
  | 116 => ⟨S_, .f32⟩
  | 117 => ⟨S8x2220x1, .f32⟩
  | 118 => ⟨S8x2220x1, .f32⟩
  | 119 => ⟨S_, .i32⟩
  | 120 => ⟨S_, .f32⟩
  | 121 => ⟨S8x2220, .f32⟩
  | 122 => ⟨S8x2220x1, .f32⟩
  | 123 => ⟨S_, .f32⟩
  | 124 => ⟨S8x2220x1, .f32⟩
  | 125 => ⟨S8x2220x1, .f32⟩
  | 126 => ⟨S8x2220x60, .f32⟩
  | 127 => ⟨S8x2220x60, .f32⟩
  | _ => ⟨S8x48x16x5, .f32⟩

abbrev hbmTy0_1 (i : Nat) : BufTy := match i % 128 with
  | 0 => ⟨S8x2220x60, .f32⟩
  | 1 => ⟨S_, .f32⟩
  | 2 => ⟨S_, .f32⟩
  | 3 => ⟨S_, .f32⟩
  | 4 => ⟨S_, .f32⟩
  | 5 => ⟨S8x2220, .f32⟩
  | 6 => ⟨S8x2220x1, .f32⟩
  | 7 => ⟨S8x2220x1, .f32⟩
  | 8 => ⟨S8x2220x1, .f32⟩
  | 9 => ⟨S_, .f32⟩
  | 10 => ⟨S_, .i1⟩
  | 11 => ⟨S_, .f32⟩
  | 12 => ⟨S_, .f32⟩
  | 13 => ⟨S8x2220x1, .f32⟩
  | 14 => ⟨S8x2220x1, .f32⟩
  | 15 => ⟨S8x2220x1, .f32⟩
  | 16 => ⟨S8x2220x60, .f32⟩
  | 17 => ⟨S8x2220x60, .f32⟩
  | 18 => ⟨S8x2220x60, .f32⟩
  | 19 => ⟨S8x2220x60, .f32⟩
  | 20 => ⟨S8x2220x2220, .f32⟩
  | 21 => ⟨S296x37x12x300, .f32⟩
  | _ => ⟨S8x48x16x5, .f32⟩

abbrev hbmTy (i : Nat) : BufTy := match i / 128 with
  | 0 => hbmTy0_0 i
  | 1 => hbmTy0_1 i
  | _ => ⟨S8x48x16x5, .f32⟩

abbrev bufTy : (tb : Table) → Fin (tcTables nBuf tb) → BufTy
  | .hbm, ⟨i, _⟩ => hbmTy i
  | _, _ => ⟨S8x48x16x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_c_3 : Ref sig .tc := ⟨.hbm, 56, rfl⟩
abbrev main_v50 : Ref sig .tc := ⟨.hbm, 57, rfl⟩
abbrev main_v51 : Ref sig .tc := ⟨.hbm, 58, rfl⟩
abbrev main_c_4 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_c_5 : Ref sig .tc := ⟨.hbm, 63, rfl⟩
abbrev main_v55 : Ref sig .tc := ⟨.hbm, 64, rfl⟩
abbrev main_v56 : Ref sig .tc := ⟨.hbm, 65, rfl⟩
abbrev main_c_6 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_c_8 : Ref sig .tc := ⟨.hbm, 84, rfl⟩
abbrev main_call0_call0_cst : Ref sig .tc := ⟨.hbm, 85, rfl⟩
abbrev main_call0_call0_v0 : Ref sig .tc := ⟨.hbm, 86, rfl⟩
abbrev main_call0_call0_v1 : Ref sig .tc := ⟨.hbm, 87, rfl⟩
abbrev main_call0_call0_cst_0 : Ref sig .tc := ⟨.hbm, 88, rfl⟩
abbrev main_call0_call0_v2 : Ref sig .tc := ⟨.hbm, 89, rfl⟩
abbrev main_call0_call0_v3 : Ref sig .tc := ⟨.hbm, 90, rfl⟩
abbrev main_call0_call0_v4 : Ref sig .tc := ⟨.hbm, 91, rfl⟩
abbrev main_call0_call0_v5 : Ref sig .tc := ⟨.hbm, 92, rfl⟩
abbrev main_call0_call0_v6 : Ref sig .tc := ⟨.hbm, 93, rfl⟩
abbrev main_call0_call0_v7 : Ref sig .tc := ⟨.hbm, 94, rfl⟩
abbrev main_call0_call0_cst_1 : Ref sig .tc := ⟨.hbm, 95, rfl⟩
abbrev main_call0_call0_v8 : Ref sig .tc := ⟨.hbm, 96, rfl⟩
abbrev main_call0_call0_cst_2 : Ref sig .tc := ⟨.hbm, 97, rfl⟩
abbrev main_call0_call0_v9 : Ref sig .tc := ⟨.hbm, 98, rfl⟩
abbrev main_call0_call0_v10 : Ref sig .tc := ⟨.hbm, 99, rfl⟩
abbrev main_call0_call0_v11 : Ref sig .tc := ⟨.hbm, 100, rfl⟩
abbrev main_call0_call0_v12 : Ref sig .tc := ⟨.hbm, 101, rfl⟩
abbrev main_call0_call0_cst_3 : Ref sig .tc := ⟨.hbm, 102, rfl⟩
abbrev main_call0_call0_v13 : Ref sig .tc := ⟨.hbm, 103, rfl⟩
abbrev main_call0_call0_cst_4 : Ref sig .tc := ⟨.hbm, 104, rfl⟩
abbrev main_call0_call0_call0_v0 : Ref sig .tc := ⟨.hbm, 105, rfl⟩
abbrev main_call0_call0_call0_v1 : Ref sig .tc := ⟨.hbm, 106, rfl⟩
abbrev main_call0_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_9 : Ref sig .tc := ⟨.hbm, 113, rfl⟩
abbrev main_v77 : Ref sig .tc := ⟨.hbm, 114, rfl⟩
abbrev main_v78 : Ref sig .tc := ⟨.hbm, 115, rfl⟩
abbrev main_cst_10 : Ref sig .tc := ⟨.hbm, 116, rfl⟩
abbrev main_v79 : Ref sig .tc := ⟨.hbm, 117, rfl⟩
abbrev main_v80 : Ref sig .tc := ⟨.hbm, 118, rfl⟩
abbrev main_c_11 : Ref sig .tc := ⟨.hbm, 119, rfl⟩
abbrev main_call1_call0_cst : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_call0_cst_0 : Ref sig .tc := ⟨.hbm, 123, rfl⟩
abbrev main_call1_call0_v2 : Ref sig .tc := ⟨.hbm, 124, rfl⟩
abbrev main_call1_call0_v3 : Ref sig .tc := ⟨.hbm, 125, rfl⟩
abbrev main_call1_call0_v4 : Ref sig .tc := ⟨.hbm, 126, rfl⟩
abbrev main_call1_call0_v5 : Ref sig .tc := ⟨.hbm, 127, rfl⟩
abbrev main_call1_call0_v6 : Ref sig .tc := ⟨.hbm, 128, rfl⟩
abbrev main_call1_call0_v7 : Ref sig .tc := ⟨.hbm, 129, rfl⟩
abbrev main_call1_call0_cst_1 : Ref sig .tc := ⟨.hbm, 130, rfl⟩
abbrev main_call1_call0_v8 : Ref sig .tc := ⟨.hbm, 131, rfl⟩
abbrev main_call1_call0_cst_2 : Ref sig .tc := ⟨.hbm, 132, rfl⟩
abbrev main_call1_call0_v9 : Ref sig .tc := ⟨.hbm, 133, rfl⟩
abbrev main_call1_call0_v10 : Ref sig .tc := ⟨.hbm, 134, rfl⟩
abbrev main_call1_call0_v11 : Ref sig .tc := ⟨.hbm, 135, rfl⟩
abbrev main_call1_call0_v12 : Ref sig .tc := ⟨.hbm, 136, rfl⟩
abbrev main_call1_call0_cst_3 : Ref sig .tc := ⟨.hbm, 137, rfl⟩
abbrev main_call1_call0_v13 : Ref sig .tc := ⟨.hbm, 138, rfl⟩
abbrev main_call1_call0_cst_4 : Ref sig .tc := ⟨.hbm, 139, rfl⟩
abbrev main_call1_call0_call0_v0 : Ref sig .tc := ⟨.hbm, 140, rfl⟩
abbrev main_call1_call0_call0_v1 : Ref sig .tc := ⟨.hbm, 141, rfl⟩
abbrev main_call1_v0 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩

abbrev nD : Nat := 1
abbrev τ : Topo := Topo.v7x

variable {F : FTy → Type} [FloatOps F]

class Facts₀ : Prop where
  bcast_S37_S37x1_0 : S37.BroadcastsInDim S37x1 (![0] : Fin 1 → Fin S37x1.rank)
  bcast_S12_S1x12_1 : S12.BroadcastsInDim S1x12 (![1] : Fin 1 → Fin S1x12.rank)
  bcast_S37x1_S37x12_0_1 : S37x1.BroadcastsInDim S37x12 (![0, 1] : Fin 2 → Fin S37x12.rank)
  bcast_S1x12_S37x12_0_1 : S1x12.BroadcastsInDim S37x12 (![0, 1] : Fin 2 → Fin S37x12.rank)
  bcast_S12_S12x1_0 : S12.BroadcastsInDim S12x1 (![0] : Fin 1 → Fin S12x1.rank)
  bcast_S5_S1x5_1 : S5.BroadcastsInDim S1x5 (![1] : Fin 1 → Fin S1x5.rank)
  bcast_S12x1_S12x5_0_1 : S12x1.BroadcastsInDim S12x5 (![0, 1] : Fin 2 → Fin S12x5.rank)
  bcast_S1x5_S12x5_0_1 : S1x5.BroadcastsInDim S12x5 (![0, 1] : Fin 2 → Fin S12x5.rank)
  bcast_S37x12_S37x1x12x1_0_2 : S37x12.BroadcastsInDim S37x1x12x1 (![0, 2] : Fin 2 → Fin S37x1x12x1.rank)
  bcast_S12x5_S1x12x1x5_1_3 : S12x5.BroadcastsInDim S1x12x1x5 (![1, 3] : Fin 2 → Fin S1x12x1x5.rank)
  bcast_S_S37x1x12x1 : S_.BroadcastsInDim S37x1x12x1 (![] : Fin 0 → Fin S37x1x12x1.rank)
  bcast_S_S1x12x1x5 : S_.BroadcastsInDim S1x12x1x5 (![] : Fin 0 → Fin S1x12x1x5.rank)
  bcast_S37x1x12x1_S37x12x12x5_0_1_2_3 : S37x1x12x1.BroadcastsInDim S37x12x12x5 (![0, 1, 2, 3] : Fin 4 → Fin S37x12x12x5.rank)
  bcast_S1x12x1x5_S37x12x12x5_0_1_2_3 : S1x12x1x5.BroadcastsInDim S37x12x12x5 (![0, 1, 2, 3] : Fin 4 → Fin S37x12x12x5.rank)
  bcast_S37x12x12x5_S37x12x12x5x1_0_1_2_3 : S37x12x12x5.BroadcastsInDim S37x12x12x5x1 (![0, 1, 2, 3] : Fin 4 → Fin S37x12x12x5x1.rank)
  concatenates_S37x12x12x5x1_S37x12x12x5x1_S37x12x12x5x2_d4 : Shape.Concatenates [S37x12x12x5x1, S37x12x12x5x1] S37x12x12x5x2 4
  transposes_S8x37x12x12x5x5_S8x5x37x12x12x5_0_5_1_2_3_4 : S8x37x12x12x5x5.Transposes [0, 5, 1, 2, 3, 4] S8x5x37x12x12x5
  shapeCasts_S8x5x37x12x12x5_S8x2220x60 : S8x5x37x12x12x5.ShapeCasts S8x2220x60
  reducesTo_S8x2220x60_S8x2220_d2 : S8x2220x60.ReducesTo [2] S8x2220
  h_S_ : 0 < S_.numel
  bcast_S8x2220_S8x2220x1_0_1 : S8x2220.BroadcastsInDim S8x2220x1 (![0, 1] : Fin 2 → Fin S8x2220x1.rank)
  bcast_S_S8x2220x1 : S_.BroadcastsInDim S8x2220x1 (![] : Fin 0 → Fin S8x2220x1.rank)
  bcast_S8x2220x1_S8x2220x60_0_1_2 : S8x2220x1.BroadcastsInDim S8x2220x60 (![0, 1, 2] : Fin 3 → Fin S8x2220x60.rank)
  shapeCasts_S8x2220x2220_S296x37x12x300 : S8x2220x2220.ShapeCasts S296x37x12x300
  gather_S8x48x16x5_S37x12x12x5x2_S8x37x12x12x5x5_05_12_n_n_12_4_8115_wf : GatherDims.WF S8x48x16x5 S37x12x12x5x2 S8x37x12x12x5x5 [0, 5] [1, 2] [] [1, 2] [] 4 ![8, 1, 1, 5]
  dot_S8x2220x60_S8x2220x60_S8x2220x2220_2_2_1_1_0_0_wf : DotDims.WF S8x2220x60 S8x2220x60 S8x2220x2220 [2] [2] [1] [1] [0] [0]

variable [Facts₀]

def gather_S8x48x16x5_S37x12x12x5x2_S8x37x12x12x5x5_05_12_n_n_12_4_8115 : GatherDims S8x48x16x5 S37x12x12x5x2 S8x37x12x12x5x5 where
  offsetDims := [0, 5]
  collapsedSliceDims := [1, 2]
  operandBatchingDims := []
  startIndicesBatchingDims := []
  startIndexMap := [1, 2]
  indexVectorDim := 4
  sliceSizes := ![8, 1, 1, 5]
  wf := gather_S8x48x16x5_S37x12x12x5x2_S8x37x12x12x5x5_05_12_n_n_12_4_8115_wf
def dot_S8x2220x60_S8x2220x60_S8x2220x2220_2_2_1_1_0_0 : DotDims S8x2220x60 S8x2220x60 S8x2220x2220 where
  lhsContracting := [2]
  rhsContracting := [2]
  lhsNonContracting := [1]
  rhsNonContracting := [1]
  lhsBatch := [0]
  rhsBatch := [0]
  wf := dot_S8x2220x60_S8x2220x60_S8x2220x2220_2_2_1_1_0_0_wf

class Facts : Prop extends Facts₀ where

variable [Facts]
-- ==== Proof.Spec.lean ====
/-
  The correlation of unit-normalised patch rows, as ONE function of two arrays of patch rows.

  An array of patch rows is [8, 2220, 60]: 8 images, 2220 patches per image, 60 entries per patch. A row r of 60
  extended reals has the mean (Σ r) / 60, the deviations r k - mean, the population variance (Σ dev²) / 60 and the
  unit row dev k / sqrt(var); the quotient and the root are the extended reals' (a constant row has variance 0 and
  a junk unit row, the same junk on both sides of the certificate). The correlation array [8, 2220, 2220] holds at
  (b, n, m) the dot product of the unit rows of patch n of the first array and patch m of the second, both of
  image b. The divisor is the word both programs spell, 0x42700000; it denotes 60 and is positive, which is all
  the certificate uses of its value.
-/
import Idealize.ShloMosaic.PureOps.Ideal.Laws
import Idealize.ShloMosaic.Lib.ValueIdx

noncomputable section

namespace Cert.Corr

open Idealize.ShloMosaic Idealize.ShloMosaic.ValueIdx

/-- The divisor of a row's sums: the extended real the word 0x42700000 denotes. -/
def sixty : EReal := Ideal.ofBits .f32 0x42700000#32

/-- That word is the real 60: sign 0, exponent 132, significand 7·2^20, so (2^23 + 7·2^20) · 2^(132 - 150). -/
theorem sixty_eq : sixty = ((60 : ℝ) : EReal) := by
  unfold sixty
  simp [Ideal.ofBits, Ideal.ieee, -EReal.coe_mul]; norm_num

theorem sixty_pos : (0 : EReal) < sixty := by
  rw [sixty_eq]; exact_mod_cast (by norm_num : (0 : ℝ) < 60)

/-- A row's mean. -/
def mean (r : Fin 60 → EReal) : EReal := Ideal.div (∑ k, r k) sixty
/-- A row's deviation from its mean at entry k. -/
def dev (r : Fin 60 → EReal) (k : Fin 60) : EReal := r k - mean r
/-- A row's population variance. -/
def var (r : Fin 60 → EReal) : EReal := Ideal.div (∑ k, dev r k * dev r k) sixty
/-- The unit row: each deviation over the standard deviation. -/
def unit (r : Fin 60 → EReal) (k : Fin 60) : EReal := Ideal.div (dev r k) (Ideal.sqrt (var r))
/-- The dot product of two rows' unit rows. -/
def dot (r s : Fin 60 → EReal) : EReal := ∑ k, unit r k * unit s k

/-- Row n of image b of an array of patch rows. -/
def row (p : (⟨3, ![8, 2220, 60]⟩ : Shape).Idx → EReal) (b : Fin 8) (n : Fin 2220) : Fin 60 → EReal :=
  fun k => p (ix3 b n k)

/-- The correlation array: at (b, n, m) the dot product of the unit rows of patch n of `p2` and patch m of `p1`. -/
def corr (p2 p1 : (⟨3, ![8, 2220, 60]⟩ : Shape).Idx → EReal) : (⟨3, ![8, 2220, 2220]⟩ : Shape).Idx → EReal :=
  fun j => dot (row p2 (j 0) (j 1)) (row p1 (j 0) (j 2))

theorem corr_apply (p2 p1 : (⟨3, ![8, 2220, 60]⟩ : Shape).Idx → EReal) (b : Fin 8) (n m : Fin 2220) :
    corr p2 p1 (ix3 b n m) = dot (row p2 b n) (row p1 b m) := rfl

end Cert.Corr

end
-- ==== Proof.KerBlocks.lean ====
/-
  The kernel's output array after the run, as one function of the two arrays its windows stage.

  The grid has 8 × 5 points (b, s). At point (b, s) the body reads image b's 2220 patch rows of the first staged array
  (a block [1, 2220, 60]) and rows 512·s … 512·s + 511 of image b of the second, padded, array (a block [1, 512, 60]),
  and stores into block (b, 0, s) of the output [8, 2220, 2560] the 2220 × 512 dot products of their unit rows. The
  blocks tile the output, so after the run the output holds at (b, n, M) the dot product of the unit rows of patch n
  and padded patch M of image b.
-/
import proofs.«174513_j88252987998983_1_alg».proof.Proof.Gen.KernelIdeal.Frame
import proofs.«174513_j88252987998983_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- What the body stores, entry by entry: at (0, n, q) the dot product of the unit rows of row n of the first block
    and row q of the second. -/
def PayloadSpec : Prop :=
  ∀ (x0 : Vec Ideal S1x2220x60 .f32) (x1 : Vec Ideal S1x512x60 .f32) (n : Fin 2220) (q : Fin 512),
    k0_pay1 (F := Ideal) x0 x1 (ix3 (0 : Fin 1) n q)
      = Cert.Corr.dot (fun k => x0 (ix3 (0 : Fin 1) n k)) (fun k => x1 (ix3 (0 : Fin 1) q k))

theorem hz3 : (![0, 0, 0] : Fin 3 → Nat) = fun _ => 0 := funext fun a => by fin_cases a <;> rfl

/-- The padded correlation array of a [8, 2220, 60] and a [8, 2560, 60] array of rows. -/
def padded (a2 : S8x2220x60.Idx → EReal) (a1 : S8x2560x60.Idx → EReal) : S8x2220x2560.Idx → EReal :=
  fun i => Cert.Corr.dot (fun k => a2 (ix3 (n0 := 8) (n1 := 2220) (i 0) (i 1) k))
    (fun k => a1 (ix3 (n0 := 8) (n1 := 2560) (i 0) (i 2) k))

/-- The block indices of the three windows at a grid point: the first window follows the output's image, the second
    its image and column block; the output's row block is always 0. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (1 : Fin 3) = 0 ∧ win0_2.index t (0 : Fin 3) ≤ 7 ∧ win0_2.index t (2 : Fin 3) ≤ 4 :=
  (by decide +kernel : ∀ t : Fin grid0.N, _)

/-- Every (image, column block) pair is some grid point's. -/
theorem idx_onto : ∀ (q0 : Fin 8) (q2 : Fin 5), ∃ t : Fin cfg0.N, win0_2.index t = ![q0.val, 0, q2.val] :=
  (by decide +kernel : ∀ (q0 : Fin 8) (q2 : Fin 5), ∃ t : Fin grid0.N, win0_2.index t = ![q0.val, 0, q2.val])

/-- The first window's block at a point, and the second's, at their literal types. -/
abbrev blkA (c : Dev nD) (t : Fin cfg0.N) : Vec Ideal S1x2220x60 .f32 := iblk m c 0 t
abbrev blkB (c : Dev nD) (t : Fin cfg0.N) : Vec Ideal S1x512x60 .f32 := iblk m c 1 t

/-- Row n of the first block is row n of the output block's image in the first array. -/
theorem readA (c : Dev nD) (t : Fin cfg0.N) (n : Fin 2220) (k : Fin 60) (i : S8x2220x60.Idx)
    (h0 : (i 0).val = win0_2.index t (0 : Fin 3)) (h1 : (i 1).val = n.val) (h2 : (i 2).val = k.val) :
    blkA m c t (ix3 (0 : Fin 1) n k) = V m c main_v67 i := by
  obtain ⟨e0, e1, e2, -⟩ := idx_facts t
  show V m c main_v67 (((cfg0.win 0).blk t).view.emb (ix3 (0 : Fin 1) n k)) = V m c main_v67 i
  refine congrArg (V m c main_v67) (funext fun a => Fin.ext ?_)
  match a with
  | ⟨0, _⟩ => show win0_0.index t (0 : Fin 3) * 1 + 1 * 0 = (i 0).val; omega
  | ⟨1, _⟩ => show win0_0.index t (1 : Fin 3) * 2220 + 1 * n.val = (i 1).val; omega
  | ⟨2, _⟩ => show win0_0.index t (2 : Fin 3) * 60 + 1 * k.val = (i 2).val; omega

/-- Row q of the second block is row 512·s + q of the output block's image in the second array. -/
theorem readB (c : Dev nD) (t : Fin cfg0.N) (q : Fin 512) (k : Fin 60) (i : S8x2560x60.Idx)
    (h0 : (i 0).val = win0_2.index t (0 : Fin 3)) (h1 : (i 1).val = win0_2.index t (2 : Fin 3) * 512 + q.val) (h2 : (i 2).val = k.val) :
    blkB m c t (ix3 (0 : Fin 1) q k) = V m c main_v68 i := by
  obtain ⟨-, -, -, e0, e1, e2, -⟩ := idx_facts t
  show V m c main_v68 (((cfg0.win 1).blk t).view.emb (ix3 (0 : Fin 1) q k)) = V m c main_v68 i
  refine congrArg (V m c main_v68) (funext fun a => Fin.ext ?_)
  match a with
  | ⟨0, _⟩ => show win0_1.index t (0 : Fin 3) * 1 + 1 * 0 = (i 0).val; omega
  | ⟨1, _⟩ => show win0_1.index t (1 : Fin 3) * 512 + 1 * q.val = (i 1).val; omega
  | ⟨2, _⟩ => show win0_1.index t (2 : Fin 3) * 60 + 1 * k.val = (i 2).val; omega

/-- What point t writes back is block t of the padded correlation array of the two staged arrays. -/
theorem flushed_eq (hpay : PayloadSpec) (c : Dev nD) (t : Fin cfg0.N) :
    (dats m 0 c).flushed 2 t
      = ((cfg0.win 2).blk t).view.read (Elt Ideal) (padded (V m c main_v67) (V m c main_v68)) := by
  show (cfg0.win 2).cut (grid0.coords t) ((dats m 0 c).after 2 t) = _
  rw [after0_2]
  unfold out0_2
  rw [View.canon_unit_zero hz3]
  simp only [View.ld_unit_zero (S := S1x2220x60) hz3, View.ld_unit_zero (S := S1x512x60) hz3]
  refine funext fun (j : S1x2220x512.Idx) => ?_
  obtain ⟨u, n, q, rfl⟩ : ∃ (u : Fin 1) (n : Fin 2220) (q : Fin 512), j = ix3 u n q := ⟨j 0, j 1, j 2, eq_ix3 j⟩
  obtain rfl : u = 0 := Subsingleton.elim _ _
  show k0_pay1 (blkA m c t) (blkB m c t) (ix3 (0 : Fin 1) n q)
    = padded (V m c main_v67) (V m c main_v68) (((cfg0.win 2).blk t).view.emb (ix3 (0 : Fin 1) n q))
  refine (hpay (blkA m c t) (blkB m c t) n q).trans ?_
  obtain ⟨-, -, -, -, -, -, e1, -⟩ := idx_facts t
  unfold padded
  refine congrArg₂ Cert.Corr.dot (funext fun k => ?_) (funext fun k => ?_)
  · refine readA m c t n k _ ?_ ?_ rfl
    · show win0_2.index t (0 : Fin 3) * 1 + 1 * 0 = win0_2.index t (0 : Fin 3); omega
    · show win0_2.index t (1 : Fin 3) * 2220 + 1 * n.val = n.val; omega
  · refine readB m c t q k _ ?_ ?_ rfl
    · show win0_2.index t (0 : Fin 3) * 1 + 1 * 0 = win0_2.index t (0 : Fin 3); omega
    · show win0_2.index t (2 : Fin 3) * 512 + 1 * q.val = win0_2.index t (2 : Fin 3) * 512 + q.val; omega

/-- An index of the output is in point t's block iff each coordinate is in the block's range on its axis. -/
theorem mem_blk (t : Fin cfg0.N) (i : S8x2220x2560.Idx) :
    i ∈ ((cfg0.win 2).blk t).view.set ↔ ∀ a : Fin 3, win0_2.index t a * S1x2220x512.size a ≤ (i a).val
      ∧ (i a).val < win0_2.index t a * S1x2220x512.size a + S1x2220x512.size a := by
  show i ∈ ((View.whole main_v69).slice (win0_2.rect t)).set ↔ _
  rw [View.set_slice_whole, Rect.mem_set_unit]
  exact Iff.rfl

/-- The blocks tile the output: entry (b, n, M) is in the block of the point with image b and column block M / 512. -/
theorem cover (i : S8x2220x2560.Idx) :
    ∃ t : Fin cfg0.N, (cfg0.win 2).flush t = true ∧ i ∈ ((cfg0.win 2).blk t).view.set := by
  have hi0 : (i 0).val < 8 := (i 0).isLt
  have hi1 : (i 1).val < 2220 := (i 1).isLt
  have hi2 : (i 2).val < 2560 := (i 2).isLt
  obtain ⟨t, ht⟩ := idx_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2220 ≤ (i 1).val ∧ (i 1).val < win0_2.index t (1 : Fin 3) * 2220 + 2220; omega
  | ⟨2, _⟩ => show win0_2.index t (2 : Fin 3) * 512 ≤ (i 2).val ∧ (i 2).val < win0_2.index t (2 : Fin 3) * 512 + 512; omega

/-- The output array after the run: the padded correlation array of the two staged arrays. -/
theorem final (hpay : PayloadSpec) (c : Dev nD) :
    (dats m 0 c).arrAt 2 cfg0.N = padded (V m c main_v67) (V m c main_v68) :=
  (dats m 0 c).arrAt_eq_of_cover 2 (padded (V m c main_v67) (V m c main_v68)) (fun t _ => flushed_eq m hpay c t) cover

end Cert.KernelIdeal.Hand

end
-- ==== Proof.KerTail.lean ====
/-
  From the padded output array to the kernel's result.

  The second staged array is the first argument's patch rows padded from 2220 to 2560 rows per image, and the host
  keeps only the first 2220 columns of the output [8, 2220, 2560]: a kept column m < 2220 pairs patch n with padded
  row m, which is patch m itself, so the kept part is the correlation array of the two arrays of patch rows. The
  result is that array reshaped to [296, 37, 12, 300].
-/
import proofs.«174513_j88252987998983_1_alg».proof.Proof.KerBlocks
import Idealize.ShloMosaic.Lib.KernelVsHost
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

/-- The first 2220 columns of the padded correlation array, its second array a row-padded one, are the correlation
    array of the unpadded rows: column m < 2220 reads padded row m, which is row m. -/
theorem slice_padded (P2 P1 : S8x2220x60.Idx → EReal) {u : Shape} (z : u.Idx → EReal)
    (hp : S8x2220x60.Pads (![0, 0, 0] : Fin 3 → Nat) ![0, 340, 0] ![0, 0, 0] S8x2560x60) (hu : 0 < u.numel)
    (hs : S8x2220x2560.Slices ![0, 0, 0] S8x2220x2220) :
    extractStridedSlice S8x2220x2220 ![0, 0, 0]
        (padded P2 (pad S8x2560x60 ![0, 0, 0] ![0, 340, 0] ![0, 0, 0] P1 z hp hu)) hs
      = Cert.Corr.corr P2 P1 := by
  funext j
  obtain ⟨b, n, mm, rfl⟩ : ∃ (b : Fin 8) (n : Fin 2220) (mm : Fin 2220), j = ix3 b n mm := ⟨j 0, j 1, j 2, eq_ix3 j⟩
  have hmm : mm.val < 2560 := by have := mm.isLt; omega
  rw [extractStridedSlice_apply _ _ hs (ix3 b n mm) (ix3 b n (⟨mm.val, hmm⟩ : Fin 2560)) (fun a => by
    match a with
    | ⟨0, _⟩ => show b.val = 0 + b.val; omega
    | ⟨1, _⟩ => show n.val = 0 + n.val; omega
    | ⟨2, _⟩ => show mm.val = 0 + mm.val; omega)]
  rw [Cert.Corr.corr_apply]
  unfold padded
  refine congrArg₂ Cert.Corr.dot (funext fun k => rfl) (funext fun k => ?_)
  exact pad_apply_of_inside _ _ _ P1 z hp hu _ (ix3 b mm k) (fun a => by
    match a with
    | ⟨0, _⟩ => show b.val = 0 + b.val * (0 + 1); omega
    | ⟨1, _⟩ => show mm.val = 0 + mm.val * (0 + 1); omega
    | ⟨2, _⟩ => show k.val = 0 + k.val * (0 + 1); omega)

variable (m : (ℓ : Loc nD τ sig) → Buf (Elt Ideal) ℓ)

/-- The result buffer after the lines that follow the region: the first 2220 columns of the output array, reshaped. -/
theorem tail_eq (hpay : PayloadSpec) (c : Dev nD) :
    Pipeline.afterTail₀ cfgs (dats m) 0 (V0 m) [hostOps1] c main_v71
      = shapeCast S296x37x12x300
          (extractStridedSlice S8x2220x2220 ![0, 0, 0] (padded (V m c main_v67) (V m c main_v68))
            slices_S8x2220x2560_S8x2220x2220_0_0_0)
          shapeCasts_S8x2220x2220_S296x37x12x300 := by
  unfold Pipeline.afterTail₀
  show StableHlo.after hostOps1 _ (Proc.devRef .tc main_v71) = _
  after_results
  rw [(Pipeline.withArrays_arr spec0 launch0.win.arr_inj c _ _ 2).trans (final m hpay c)]
  rfl

end Cert.KernelIdeal.Hand

end
-- ==== Proof.RefTerm.lean ====
/-
  What the reference computes, written as one term of its two argument arrays, stage by stage.

  A patch is a 12 × 5 window of one channel of an image [48, 16, 5]; there are 37 × 12 window positions and 5
  channels, so 2220 patches of 60 entries per image. The host builds the table of (row, column) pairs of every
  entry of every window (row = window row + row inside the window, wrapped when negative, which never happens;
  the column likewise), gathers the image entries at them for all 8 images and 5 channels at once, moves the channel
  axis in front of the window position and flattens: `patch`. Each patch row is then centred by its mean and divided
  by its standard deviation, the square root of the mean of the squared deviations — where the reference divides the
  sum of squares by `60 - 0` and selects that quotient only if `60 - 0 > 0` — : `normalize`. The result is the batched
  product of the two normalised arrays contracted over the patch entries, reshaped to [296, 37, 12, 300].
-/
import proofs.«174513_j88252987998983_1_alg».proof.ReferenceIdeal
import proofs.«174513_j88252987998983_1_alg».proof.Proof.Gen.ReferenceIdeal

noncomputable section

namespace Cert.ReferenceIdeal.Hand

open Idealize.ShloMosaic Cert.ReferenceIdeal Cert.ReferenceIdeal.Facts₀

variable {F : FTy → Type} [FloatOps F]

/-- Window row + row inside the window, over [37, 12]. -/
def rowIdx : (⟨S37x12, .i32⟩ : BufTy).Contents (Elt F) :=
  addi (broadcastInDim S37x12 ![0, 1] bcast_S37x1_S37x12_0_1 (broadcastInDim S37x1 ![0] bcast_S37_S37x1_0 (iotaInDim S37 32 0)))
    (broadcastInDim S37x12 ![0, 1] bcast_S1x12_S37x12_0_1 (broadcastInDim S1x12 ![1] bcast_S12_S1x12_1 (iotaInDim S12 32 0)))

/-- Window column + column inside the window, over [12, 5]. -/
def colIdx : (⟨S12x5, .i32⟩ : BufTy).Contents (Elt F) :=
  addi (broadcastInDim S12x5 ![0, 1] bcast_S12x1_S12x5_0_1 (broadcastInDim S12x1 ![0] bcast_S12_S12x1_0 (iotaInDim S12 32 0)))
    (broadcastInDim S12x5 ![0, 1] bcast_S1x5_S12x5_0_1 (broadcastInDim S1x5 ![1] bcast_S5_S1x5_1 (iotaInDim S5 32 0)))

/-- The rows laid over [37, 1, 12, 1]. -/
def rowIdx4 : (⟨S37x1x12x1, .i32⟩ : BufTy).Contents (Elt F) :=
  broadcastInDim S37x1x12x1 ![0, 2] bcast_S37x12_S37x1x12x1_0_2 (rowIdx (F := F))

/-- The columns laid over [1, 12, 1, 5]. -/
def colIdx4 : (⟨S1x12x1x5, .i32⟩ : BufTy).Contents (Elt F) :=
  broadcastInDim S1x12x1x5 ![1, 3] bcast_S12x5_S1x12x1x5_1_3 (colIdx (F := F))

/-- A negative row would count from the end of the 48 rows. -/
def rowWrapped : (⟨S37x1x12x1, .i32⟩ : BufTy).Contents (Elt F) :=
  select (cmpi .slt (rowIdx4 (F := F)) (broadcastInDim S37x1x12x1 ![] bcast_S_S37x1x12x1 (constantI S_ 32 0#32)))
    (addi (rowIdx4 (F := F)) (broadcastInDim S37x1x12x1 ![] bcast_S_S37x1x12x1 (constantI S_ 32 48#32))) (rowIdx4 (F := F))

/-- A negative column would count from the end of the 16 columns. -/
def colWrapped : (⟨S1x12x1x5, .i32⟩ : BufTy).Contents (Elt F) :=
  select (cmpi .slt (colIdx4 (F := F)) (broadcastInDim S1x12x1x5 ![] bcast_S_S1x12x1x5 (constantI S_ 32 0#32)))
    (addi (colIdx4 (F := F)) (broadcastInDim S1x12x1x5 ![] bcast_S_S1x12x1x5 (constantI S_ 32 16#32))) (colIdx4 (F := F))

/-- The (row, column) pair of every entry of every window: [37, 12, 12, 5, 2]. -/
def idxTable : (⟨S37x12x12x5x2, .i32⟩ : BufTy).Contents (Elt F) :=
  concatenate S37x12x12x5x2 4
    [⟨S37x12x12x5x1, broadcastInDim S37x12x12x5x1 ![0, 1, 2, 3] bcast_S37x12x12x5_S37x12x12x5x1_0_1_2_3
        (broadcastInDim S37x12x12x5 ![0, 1, 2, 3] bcast_S37x1x12x1_S37x12x12x5_0_1_2_3 (rowWrapped (F := F)))⟩,
     ⟨S37x12x12x5x1, broadcastInDim S37x12x12x5x1 ![0, 1, 2, 3] bcast_S37x12x12x5_S37x12x12x5x1_0_1_2_3
        (broadcastInDim S37x12x12x5 ![0, 1, 2, 3] bcast_S1x12x1x5_S37x12x12x5_0_1_2_3 (colWrapped (F := F)))⟩]
    concatenates_S37x12x12x5x1_S37x12x12x5x1_S37x12x12x5x2_d4

/-- The patch rows of an array of images: gathered, the channel axis moved forward, flattened to [8, 2220, 60]. -/
def patch (x : (⟨S8x48x16x5, .f32⟩ : BufTy).Contents (Elt F)) : (⟨S8x2220x60, .f32⟩ : BufTy).Contents (Elt F) :=
  shapeCast S8x2220x60
    (transpose S8x5x37x12x12x5 [0, 5, 1, 2, 3, 4]
      (Host.gather gather_S8x48x16x5_S37x12x12x5x2_S8x37x12x12x5x5_05_12_n_n_12_4_8115 x (idxTable (F := F)))
      transposes_S8x37x12x12x5x5_S8x5x37x12x12x5_0_5_1_2_3_4)
    shapeCasts_S8x5x37x12x12x5_S8x2220x60

/-- The scalar zero the sums start from. -/
def zeroS : (⟨S_, .f32⟩ : BufTy).Contents (Elt F) := constant S_ .f32 0x00000000#32
/-- The scalar sixty. -/
def sixtyS : (⟨S_, .f32⟩ : BufTy).Contents (Elt F) := constant S_ .f32 0x42700000#32

/-- The column of row means, [8, 2220, 1]. -/
def meanCol (p : (⟨S8x2220x60, .f32⟩ : BufTy).Contents (Elt F)) : (⟨S8x2220x1, .f32⟩ : BufTy).Contents (Elt F) :=
  Host.divf (broadcastInDim S8x2220x1 ![0, 1] bcast_S8x2220_S8x2220x1_0_1 (Host.reduceAdd p (zeroS (F := F)) reducesTo_S8x2220x60_S8x2220_d2 h_S_))
    (broadcastInDim S8x2220x1 ![] bcast_S_S8x2220x1 (sixtyS (F := F)))

/-- The rows less their means. -/
def centred (p : (⟨S8x2220x60, .f32⟩ : BufTy).Contents (Elt F)) : (⟨S8x2220x60, .f32⟩ : BufTy).Contents (Elt F) :=
  subf p (broadcastInDim S8x2220x60 ![0, 1, 2] bcast_S8x2220x1_S8x2220x60_0_1_2 (meanCol p))

/-- The variance's divisor: sixty less the zero degrees of freedom removed. -/
def divisor : (⟨S_, .f32⟩ : BufTy).Contents (Elt F) :=
  subf (sixtyS (F := F)) (sitofp (F := F) .f32 (constantI S_ 32 0#32))

/-- The column of row variances: the mean of the squared deviations where the divisor is positive, else the junk word. -/
def varCol (p : (⟨S8x2220x60, .f32⟩ : BufTy).Contents (Elt F)) : (⟨S8x2220x1, .f32⟩ : BufTy).Contents (Elt F) :=
  select (broadcastInDim S8x2220x1 ![] bcast_S_S8x2220x1 (cmpf (F := F) .ogt (divisor (F := F)) (zeroS (F := F))))
    (Host.divf
      (broadcastInDim S8x2220x1 ![0, 1] bcast_S8x2220_S8x2220x1_0_1
        (Host.reduceAdd (mulf (centred p) (centred p)) (zeroS (F := F)) reducesTo_S8x2220x60_S8x2220_d2 h_S_))
      (broadcastInDim S8x2220x1 ![] bcast_S_S8x2220x1 (divisor (F := F))))
    (broadcastInDim S8x2220x1 ![] bcast_S_S8x2220x1 (id (constant (F := F) S_ .f32 0x7FC00000#32)))

/-- The rows centred and divided by their standard deviations. -/
def normalize (p : (⟨S8x2220x60, .f32⟩ : BufTy).Contents (Elt F)) : (⟨S8x2220x60, .f32⟩ : BufTy).Contents (Elt F) :=
  Host.divf (centred p) (broadcastInDim S8x2220x60 ![0, 1, 2] bcast_S8x2220x1_S8x2220x60_0_1_2 (Host.sqrt (varCol p)))

/-- The correlation of two arrays of patch rows, [8, 2220, 2220]: the batched product of their normalised rows. -/
def corrOf (p2 p1 : (⟨S8x2220x60, .f32⟩ : BufTy).Contents (Elt F)) : (⟨S8x2220x2220, .f32⟩ : BufTy).Contents (Elt F) :=
  Host.dotGeneral dot_S8x2220x60_S8x2220x60_S8x2220x2220_2_2_1_1_0_0 none (normalize p2) (normalize p1)

/-- The reference's result from its two argument arrays. -/
def out (x0 x1 : (⟨S8x48x16x5, .f32⟩ : BufTy).Contents (Elt F)) : (⟨S296x37x12x300, .f32⟩ : BufTy).Contents (Elt F) :=
  shapeCast S296x37x12x300 (corrOf (patch x1) (patch x0)) shapeCasts_S8x2220x2220_S296x37x12x300

end Cert.ReferenceIdeal.Hand

end
-- ==== Proof.KerPrefix.lean ====
/-
  The two arrays the kernel's windows stage, as functions of the argument arrays.

  Before the region the host extracts the patch rows of both images arrays exactly as the reference does (the same
  index table, gather, transposition and flattening: `patch`), and pads the first argument's patch rows from 2220 to
  2560 rows per image with the scalar the integer 0 converts to. The first window stages the second argument's patch
  rows, the second window the padded patch rows of the first argument.
-/
import proofs.«174513_j88252987998983_1_alg».proof.Proof.Gen.KernelIdeal.Frame
import proofs.«174513_j88252987998983_1_alg».proof.Proof.RefTerm
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 4000000 in
/-- The first window's array: the patch rows of the second argument. -/
theorem V_v67 (c : Dev nD) :
    (V m c main_v67 : S8x2220x60.Idx → Elt F .f32)
      = Cert.ReferenceIdeal.Hand.patch (F := F) (m ((c : Thread nD τ).loc main_arg1)) := by
  dsimp only [V, V0]
  simp only [hostOps0, hostOps0_1, List.flatten_cons, List.flatten_nil, List.append_nil, List.cons_append, List.nil_append]
  after_results_simp <;> rfl

set_option maxHeartbeats 4000000 in
/-- The second window's array: the patch rows of the first argument, padded by 340 rows per image with the scalar the
    integer 0 converts to. -/
theorem V_v68 (c : Dev nD) :
    (V m c main_v68 : S8x2560x60.Idx → Elt F .f32)
      = pad S8x2560x60 ![0, 0, 0] ![0, 340, 0] ![0, 0, 0]
          (Cert.ReferenceIdeal.Hand.patch (F := F) (m ((c : Thread nD τ).loc main_arg0)))
          (sitofp (F := F) .f32 (constantI S_ 32 0#32))
          pads_S8x2220x60_S8x2560x60_000_03400_000 h_S_ := by
  dsimp only [V, V0]
  simp only [hostOps0, hostOps0_1, List.flatten_cons, List.flatten_nil, List.append_nil, List.cons_append, List.nil_append]
  after_results_simp <;> (try simp only [TRef.ofBuf, TRef.toBuf, cast_eq]) <;> rfl

end Cert.KernelIdeal.Hand

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.KerPayload.lean ====
/-
  The kernel body's stored value, read at an index, over the extended reals.

  The body casts its two blocks of patch rows to two axes, centres each row by its mean (the row's sum over the 60
  entries, divided by the word 0x42700000), divides each centred row by the square root of the mean of its squared
  deviations, and multiplies the first block's unit rows with the second block's, contracting the 60 entries. Read
  at (0, n, q), that is the dot product of the unit rows of row n of the first block and row q of the second:
  the same operations in the same order as the specification's `dot`.
-/
import proofs.«174513_j88252987998983_1_alg».proof.Proof.Gen.KernelIdeal.Skeleton
import proofs.«174513_j88252987998983_1_alg».proof.Proof.Spec
import proofs.«174513_j88252987998983_1_alg».proof.Proof.LibKeepdims
import proofs.«174513_j88252987998983_1_alg».proof.Proof.LibTransposedRhsDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal

variable {N : ℕ}

/-- The sum over the 60 entries of each row of an [N, 60] array, read at row p. -/
theorem rowSum_apply (x : FVec Ideal ⟨2, ![N, 60]⟩ .f32) (hr : (⟨2, ![N, 60]⟩ : Shape).Reduces [1] ⟨1, ![N]⟩)
    (hφ : FKind.Formats .f32) (hacc : (0x00000000#32 : BitVec (FTy.bits .f32)) = FKind.add.neutral .f32 hφ) (p : Fin N) :
    multiReduction (F := Ideal) .add [1] ⟨1, ![N]⟩ x 0x00000000#32 hr hφ hacc (ix1 p) = ∑ k : Fin 60, x (ix2 p k) := by
  refine (Ideal.multiReduction_add_single x _ hr hφ hacc (ix1 p)).trans ?_
  refine Finset.sum_congr rfl fun k _ => congrArg x ?_
  funext a
  apply Fin.ext
  match a with
  | ⟨0, _⟩ => rfl
  | ⟨1, _⟩ => rfl

/-- The column [N, 1] of row sums over the divisor word, broadcast across the 60 columns: the mean of row p,
    at every column. -/
def meanRows (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ) :
    FVec Ideal ⟨2, ![N, 1]⟩ .f32 :=
  divf (shapeCast ⟨2, ![N, 1]⟩ (multiReduction (F := Ideal) .add [1] ⟨1, ![N]⟩ x 0x00000000#32 hr hφ hacc) hc)
    (broadcast ⟨2, ![N, 1]⟩ (Scalar.ofBits (F := Ideal) .f32 0x42700000#32))

theorem meanRows_apply (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ)
    (p : Fin N) (u : Fin 1) :
    meanRows x hr hc hb hφ hacc (ix2 p u) = Ideal.div (∑ k : Fin 60, x (ix2 p k)) Cert.Corr.sixty := by
  show Ideal.div (shapeCast ⟨2, ![N, 1]⟩ (multiReduction (F := Ideal) .add [1] ⟨1, ![N]⟩ x 0x00000000#32 hr hφ hacc) hc (ix2 p u))
      Cert.Corr.sixty = _
  rw [Cert.Keepdims.shapeCast_a_a1_apply, rowSum_apply]

/-- The centred rows: each entry minus its row's mean. -/
def centredRows (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ) :
    FVec Ideal ⟨2, ![N, 60]⟩ .f32 :=
  subf x (broadcastTo ⟨2, ![N, 60]⟩ (meanRows x hr hc hb hφ hacc) hb)

theorem centredRows_apply (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ)
    (p : Fin N) (k : Fin 60) :
    centredRows x hr hc hb hφ hacc (ix2 p k) = Cert.Corr.dev (fun k => x (ix2 p k)) k := by
  show x (ix2 p k) - broadcastTo ⟨2, ![N, 60]⟩ (meanRows x hr hc hb hφ hacc) hb (ix2 p k) = _
  rw [Cert.Keepdims.broadcastTo_a1_ab_apply, meanRows_apply]
  rfl

/-- The unit rows: each centred entry over the square root of the mean of its row's squared deviations. -/
def unitRows (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ) :
    FVec Ideal ⟨2, ![N, 60]⟩ .f32 :=
  divf (centredRows x hr hc hb hφ hacc)
    (broadcastTo ⟨2, ![N, 60]⟩
      (sqrt (meanRows (mulf (centredRows x hr hc hb hφ hacc) (centredRows x hr hc hb hφ hacc)) hr hc hb hφ hacc)) hb)

theorem unitRows_apply (x : FVec Ideal ⟨2, ![N, 60]⟩ .f32) (hr : (⟨2, ![N, 60]⟩ : Shape).Reduces [1] ⟨1, ![N]⟩)
    (hc : (⟨1, ![N]⟩ : Shape).ShapeCasts ⟨2, ![N, 1]⟩) (hb : (⟨2, ![N, 1]⟩ : Shape).Broadcasts ⟨2, ![N, 60]⟩)
    (hφ : FKind.Formats .f32) (hacc : (0x00000000#32 : BitVec (FTy.bits .f32)) = FKind.add.neutral .f32 hφ)
    (p : Fin N) (k : Fin 60) :
    unitRows x hr hc hb hφ hacc (ix2 p k) = Cert.Corr.unit (fun k => x (ix2 p k)) k := by
  show Ideal.div (centredRows x hr hc hb hφ hacc (ix2 p k))
      (broadcastTo ⟨2, ![N, 60]⟩
        (sqrt (meanRows (mulf (centredRows x hr hc hb hφ hacc) (centredRows x hr hc hb hφ hacc)) hr hc hb hφ hacc)) hb
        (ix2 p k)) = _
  rw [Cert.Keepdims.broadcastTo_a1_ab_apply, centredRows_apply]
  show Ideal.div _ (Ideal.sqrt
      (meanRows (mulf (centredRows x hr hc hb hφ hacc) (centredRows x hr hc hb hφ hacc)) hr hc hb hφ hacc (ix2 p (0 : Fin 1)))) = _
  rw [meanRows_apply]
  unfold Cert.Corr.unit Cert.Corr.var
  refine congrArg (fun t => Ideal.div _ (Ideal.sqrt (Ideal.div t Cert.Corr.sixty))) ?_
  refine Finset.sum_congr rfl fun c _ => ?_
  show centredRows x hr hc hb hφ hacc (ix2 p c) * centredRows x hr hc hb hφ hacc (ix2 p c) = _
  rw [centredRows_apply]

/-- The body's stored value at (0, n, q): the dot product of the unit rows of row n of the first block and row q
    of the second. -/
theorem pay_apply (x0 : Vec Ideal S1x2220x60 .f32) (x1 : Vec Ideal S1x512x60 .f32) (n : Fin 2220) (q : Fin 512) :
    Cert.KernelIdeal.Gen.k0_pay1 (F := Ideal) x0 x1 (ix3 (0 : Fin 1) n q)
      = Cert.Corr.dot (fun k => x0 (ix3 (0 : Fin 1) n k)) (fun k => x1 (ix3 (0 : Fin 1) q k)) := by
  have e : Cert.KernelIdeal.Gen.k0_pay1 (F := Ideal) x0 x1
      = shapeCast S1x2220x512
          (matmul Cert.KernelIdeal.dot_S2220x60_S512x60_S2220x512_1_1_0_0_n_n none
            (truncf .bf16
              (unitRows (N := 2220) (shapeCast S2220x60 x0 Gen.shapeCasts_S1x2220x60_S2220x60) Gen.reduces_S2220x60_S2220
                Gen.shapeCasts_S2220_S2220x1 Gen.broadcasts_S2220x1_S2220x60 (.inl rfl) rfl)
              Gen.bitsLt_bf16_f32)
            (truncf .bf16
              (unitRows (N := 512) (shapeCast S512x60 x1 Gen.shapeCasts_S1x512x60_S512x60) Gen.reduces_S512x60_S512
                Gen.shapeCasts_S512_S512x1 Gen.broadcasts_S512x1_S512x60 (.inl rfl) rfl)
              Gen.bitsLt_bf16_f32)
            (constant (F := Ideal) S2220x512 .f32 0x00000000#32))
          Gen.shapeCasts_S2220x512_S1x2220x512 := rfl
  refine (congrFun e _).trans ?_
  refine (shapeCast_ab_1ab_apply _ _ (0 : Fin 1) n q).trans ?_
  refine (Idealize.ShloMosaic.TransposedRhsDot.matmul_zero_apply (M := 2220) (K := 60) (N := 512)
    Cert.KernelIdeal.dot_S2220x60_S512x60_S2220x512_1_1_0_0_n_n (by rfl) none _ _ (ix2 n q)).trans ?_
  unfold Cert.Corr.dot
  refine Finset.sum_congr rfl fun k _ => ?_
  refine (congrArg₂ (· * ·) (unitRows_apply (N := 2220) _ _ _ _ _ _ n k) (unitRows_apply (N := 512) _ _ _ _ _ _ q k)).trans ?_
  have e0 : (fun k : Fin 60 => shapeCast S2220x60 x0 Gen.shapeCasts_S1x2220x60_S2220x60 (ix2 n k))
      = fun k => x0 (ix3 (0 : Fin 1) n k) := funext fun k => shapeCast_1ab_ab_apply x0 _ n k
  have e1 : (fun k : Fin 60 => shapeCast S512x60 x1 Gen.shapeCasts_S1x512x60_S512x60 (ix2 q k))
      = fun k => x1 (ix3 (0 : Fin 1) q k) := funext fun k => shapeCast_1ab_ab_apply x1 _ q k
  rw [e0, e1]

end Cert.KernelIdeal.Hand

end
-- ==== Proof.KerRun.lean ====
/-
  The idealized kernel's run with its result named.

  Every weakly fair execution of the kernel's @main terminates with the result buffer at the correlation array of the
  two arguments' patch rows, reshaped to [296, 37, 12, 300], and the arguments unchanged: the region leaves the padded
  correlation array of the staged arrays in its output (the body's dot products, block by block), the staged arrays are
  the second argument's patch rows and the first argument's padded ones, and the host keeps the unpadded columns.
-/
import proofs.«174513_j88252987998983_1_alg».proof.Proof.KerTail
import proofs.«174513_j88252987998983_1_alg».proof.Proof.KerPrefix
import proofs.«174513_j88252987998983_1_alg».proof.Proof.KerPayload

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

/-- The body stores the dot products of unit rows. -/
theorem payloadSpec : PayloadSpec := fun x0 x1 n q => pay_apply x0 x1 n q

/-- The kernel's result from its two argument arrays: the correlation array of the second argument's patch rows with
    the first's, reshaped. -/
def result (x0 x1 : S8x48x16x5.Idx → EReal) : S296x37x12x300.Idx → EReal :=
  shapeCast S296x37x12x300
    (Cert.Corr.corr (Cert.ReferenceIdeal.Hand.patch (F := Ideal) x1) (Cert.ReferenceIdeal.Hand.patch (F := Ideal) x0))
    shapeCasts_S8x2220x2220_S296x37x12x300

variable (m : (ℓ : Loc nD τ sig) → Buf (Elt Ideal) ℓ) (ρ : Dev nD → PrngReg)

/-- The result buffer after the run. -/
theorem result_eq (c : Dev nD) :
    Pipeline.afterTail₀ cfgs (dats m) 0 (V0 m) [hostOps1] c main_v71
      = result (m ((c : Thread nD τ).loc main_arg0)) (m ((c : Thread nD τ).loc main_arg1)) := by
  rw [tail_eq m payloadSpec c, V_v67 m c, V_v68 m c]
  exact congrArg (fun x => shapeCast S296x37x12x300 x shapeCasts_S8x2220x2220_S296x37x12x300) (slice_padded _ _ _ _ _ _)

/-- The run: the result named, the arguments unchanged. -/
theorem run : θ_run defs (onTc (τ := τ) (main (F := Ideal))) ⟨m, fun _ => 0, ρ⟩ fun r => ∀ c : Dev nD,
      r.2.mem ((c.tc : Thread nD τ).loc main_v71) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v71 (Pipeline.mem_restRefs_of main_v71 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefRunOps.lean ====
/-
  The reference program's @main as a list of its host operations, the three outlined functions' bodies written out at
  their two call sites over the calls' buffer records: the 38 operations that build the patch rows of the first
  argument, the 38 that build those of the second (cut in two where @main's first window of statements ends), the 35 that
  normalise the first array of patch rows, and the 37 that normalise the second, multiply and reshape. @main is the
  straight line of the concatenated list; every operation touches TensorCore references only and determines its result.
-/
import proofs.«174513_j88252987998983_1_alg».proof.ReferenceIdeal
import proofs.«174513_j88252987998983_1_alg».proof.Proof.Gen.ReferenceIdeal
import Idealize.ShloMosaic.Lib.StableHlo.Run
import Idealize.ShloMosaic.Lib.Pipeline.Regions
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

set_option maxHeartbeats 4000000 in
/-- The patch rows of the first argument: the index table, the gather, the transpose, the flattening. -/
abbrev opsA : List (HloOp τ sig (Elt F)) :=
  [ nullary main_v0 (iotaInDim S37 32 0),
    unary main_v0 main_v1 (broadcastInDim S37x1 ![0] bcast_S37_S37x1_0 : (⟨S37, .i32⟩ : BufTy).Contents (Elt F) → (⟨S37x1, .i32⟩ : BufTy).Contents (Elt F)),
    nullary main_v2 (iotaInDim S12 32 0),
    unary main_v2 main_v3 (broadcastInDim S1x12 ![1] bcast_S12_S1x12_1 : (⟨S12, .i32⟩ : BufTy).Contents (Elt F) → (⟨S1x12, .i32⟩ : BufTy).Contents (Elt F)),
    unary main_v1 main_v4 (broadcastInDim S37x12 ![0, 1] bcast_S37x1_S37x12_0_1 : (⟨S37x1, .i32⟩ : BufTy).Contents (Elt F) → (⟨S37x12, .i32⟩ : BufTy).Contents (Elt F)),
    unary main_v3 main_v5 (broadcastInDim S37x12 ![0, 1] bcast_S1x12_S37x12_0_1 : (⟨S1x12, .i32⟩ : BufTy).Contents (Elt F) → (⟨S37x12, .i32⟩ : BufTy).Contents (Elt F)),
    binary main_v4 main_v5 main_v6 (addi : (⟨S37x12, .i32⟩ : BufTy).Contents (Elt F) → (⟨S37x12, .i32⟩ : BufTy).Contents (Elt F) → (⟨S37x12, .i32⟩ : BufTy).Contents (Elt F)),
    nullary main_v7 (iotaInDim S12 32 0),
    unary main_v7 main_v8 (broadcastInDim S12x1 ![0] bcast_S12_S12x1_0 : (⟨S12, .i32⟩ : BufTy).Contents (Elt F) → (⟨S12x1, .i32⟩ : BufTy).Contents (Elt F)),
    nullary main_v9 (iotaInDim S5 32 0),
    unary main_v9 main_v10 (broadcastInDim S1x5 ![1] bcast_S5_S1x5_1 : (⟨S5, .i32⟩ : BufTy).Contents (Elt F) → (⟨S1x5, .i32⟩ : BufTy).Contents (Elt F)),
    unary main_v8 main_v11 (broadcastInDim S12x5 ![0, 1] bcast_S12x1_S12x5_0_1 : (⟨S12x1, .i32⟩ : BufTy).Contents (Elt F) → (⟨S12x5, .i32⟩ : BufTy).Contents (Elt F)),
    unary main_v10 main_v12 (broadcastInDim S12x5 ![0, 1] bcast_S1x5_S12x5_0_1 : (⟨S1x5, .i32⟩ : BufTy).Contents (Elt F) → (⟨S12x5, .i32⟩ : BufTy).Contents (Elt F)),
    binary main_v11 main_v12 main_v13 (addi : (⟨S12x5, .i32⟩ : BufTy).Contents (Elt F) → (⟨S12x5, .i32⟩ : BufTy).Contents (Elt F) → (⟨S12x5, .i32⟩ : BufTy).Contents (Elt F)),
    unary main_v6 main_v14 (broadcastInDim S37x1x12x1 ![0, 2] bcast_S37x12_S37x1x12x1_0_2 : (⟨S37x12, .i32⟩ : BufTy).Contents (Elt F) → (⟨S37x1x12x1, .i32⟩ : BufTy).Contents (Elt F)),
    unary main_v13 main_v15 (broadcastInDim S1x12x1x5 ![1, 3] bcast_S12x5_S1x12x1x5_1_3 : (⟨S12x5, .i32⟩ : BufTy).Contents (Elt F) → (⟨S1x12x1x5, .i32⟩ : BufTy).Contents (Elt F)),
    nullary main_c (constantI S_ 32 0#32),
    unary main_c main_v16 (broadcastInDim S37x1x12x1 ![] bcast_S_S37x1x12x1 : (⟨S_, .i32⟩ : BufTy).Contents (Elt F) → (⟨S37x1x12x1, .i32⟩ : BufTy).Contents (Elt F)),
    binary main_v14 main_v16 main_v17 (cmpi .slt : (⟨S37x1x12x1, .i32⟩ : BufTy).Contents (Elt F) → (⟨S37x1x12x1, .i32⟩ : BufTy).Contents (Elt F) → (⟨S37x1x12x1, .i1⟩ : BufTy).Contents (Elt F)),
    nullary main_c_0 (constantI S_ 32 48#32),
    unary main_c_0 main_v18 (broadcastInDim S37x1x12x1 ![] bcast_S_S37x1x12x1 : (⟨S_, .i32⟩ : BufTy).Contents (Elt F) → (⟨S37x1x12x1, .i32⟩ : BufTy).Contents (Elt F)),
    binary main_v14 main_v18 main_v19 (addi : (⟨S37x1x12x1, .i32⟩ : BufTy).Contents (Elt F) → (⟨S37x1x12x1, .i32⟩ : BufTy).Contents (Elt F) → (⟨S37x1x12x1, .i32⟩ : BufTy).Contents (Elt F)),
    ternary main_v17 main_v19 main_v14 main_v20 (select : (⟨S37x1x12x1, .i1⟩ : BufTy).Contents (Elt F) → (⟨S37x1x12x1, .i32⟩ : BufTy).Contents (Elt F) → (⟨S37x1x12x1, .i32⟩ : BufTy).Contents (Elt F) → (⟨S37x1x12x1, .i32⟩ : BufTy).Contents (Elt F)),
    nullary main_c_1 (constantI S_ 32 0#32),
    unary main_c_1 main_v21 (broadcastInDim S1x12x1x5 ![] bcast_S_S1x12x1x5 : (⟨S_, .i32⟩ : BufTy).Contents (Elt F) → (⟨S1x12x1x5, .i32⟩ : BufTy).Contents (Elt F)),
    binary main_v15 main_v21 main_v22 (cmpi .slt : (⟨S1x12x1x5, .i32⟩ : BufTy).Contents (Elt F) → (⟨S1x12x1x5, .i32⟩ : BufTy).Contents (Elt F) → (⟨S1x12x1x5, .i1⟩ : BufTy).Contents (Elt F)),
    nullary main_c_2 (constantI S_ 32 16#32),
    unary main_c_2 main_v23 (broadcastInDim S1x12x1x5 ![] bcast_S_S1x12x1x5 : (⟨S_, .i32⟩ : BufTy).Contents (Elt F) → (⟨S1x12x1x5, .i32⟩ : BufTy).Contents (Elt F)),
    binary main_v15 main_v23 main_v24 (addi : (⟨S1x12x1x5, .i32⟩ : BufTy).Contents (Elt F) → (⟨S1x12x1x5, .i32⟩ : BufTy).Contents (Elt F) → (⟨S1x12x1x5, .i32⟩ : BufTy).Contents (Elt F)),
    ternary main_v22 main_v24 main_v15 main_v25 (select : (⟨S1x12x1x5, .i1⟩ : BufTy).Contents (Elt F) → (⟨S1x12x1x5, .i32⟩ : BufTy).Contents (Elt F) → (⟨S1x12x1x5, .i32⟩ : BufTy).Contents (Elt F) → (⟨S1x12x1x5, .i32⟩ : BufTy).Contents (Elt F)),
    unary main_v20 main_v26 (broadcastInDim S37x12x12x5 ![0, 1, 2, 3] bcast_S37x1x12x1_S37x12x12x5_0_1_2_3 : (⟨S37x1x12x1, .i32⟩ : BufTy).Contents (Elt F) → (⟨S37x12x12x5, .i32⟩ : BufTy).Contents (Elt F)),
    unary main_v25 main_v27 (broadcastInDim S37x12x12x5 ![0, 1, 2, 3] bcast_S1x12x1x5_S37x12x12x5_0_1_2_3 : (⟨S1x12x1x5, .i32⟩ : BufTy).Contents (Elt F) → (⟨S37x12x12x5, .i32⟩ : BufTy).Contents (Elt F)),
    unary main_v26 main_v28 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    unary main_v27 main_v29 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    binary main_v28 main_v29 main_v30 ((fun a b => concatenate S37x12x12x5x2 4 [⟨S37x12x12x5x1, a⟩, ⟨S37x12x12x5x1, b⟩] concatenates_S37x12x12x5x1_S37x12x12x5x1_S37x12x12x5x2_d4) : (⟨S37x12x12x5x1, .i32⟩ : BufTy).Contents (Elt F) → (⟨S37x12x12x5x1, .i32⟩ : BufTy).Contents (Elt F) → (⟨S37x12x12x5x2, .i32⟩ : BufTy).Contents (Elt F)),
    binary main_arg0 main_v30 main_v31 ((fun x i => Host.gather gather_S8x48x16x5_S37x12x12x5x2_S8x37x12x12x5x5_05_12_n_n_12_4_8115 x i) : (⟨S8x48x16x5, .f32⟩ : BufTy).Contents (Elt F) → (⟨S37x12x12x5x2, .i32⟩ : BufTy).Contents (Elt F) → (⟨S8x37x12x12x5x5, .f32⟩ : BufTy).Contents (Elt F)),
    unary main_v31 main_v32 ((transpose S8x5x37x12x12x5 [0, 5, 1, 2, 3, 4] · transposes_S8x37x12x12x5x5_S8x5x37x12x12x5_0_5_1_2_3_4) : (⟨S8x37x12x12x5x5, .f32⟩ : BufTy).Contents (Elt F) → (⟨S8x5x37x12x12x5, .f32⟩ : BufTy).Contents (Elt F)),
    reshape main_v32 main_v33 rfl shapeCasts_S8x5x37x12x12x5_S8x2220x60 ]

set_option maxHeartbeats 4000000 in
/-- The index table of the second argument's patch rows, up to the end of @main's first window of statements. -/
abbrev opsB1 : List (HloOp τ sig (Elt F)) :=
  [ nullary main_v34 (iotaInDim S37 32 0),
    unary main_v34 main_v35 (broadcastInDim S37x1 ![0] bcast_S37_S37x1_0 : (⟨S37, .i32⟩ : BufTy).Contents (Elt F) → (⟨S37x1, .i32⟩ : BufTy).Contents (Elt F)),
    nullary main_v36 (iotaInDim S12 32 0),
    unary main_v36 main_v37 (broadcastInDim S1x12 ![1] bcast_S12_S1x12_1 : (⟨S12, .i32⟩ : BufTy).Contents (Elt F) → (⟨S1x12, .i32⟩ : BufTy).Contents (Elt F)),
    unary main_v35 main_v38 (broadcastInDim S37x12 ![0, 1] bcast_S37x1_S37x12_0_1 : (⟨S37x1, .i32⟩ : BufTy).Contents (Elt F) → (⟨S37x12, .i32⟩ : BufTy).Contents (Elt F)),
    unary main_v37 main_v39 (broadcastInDim S37x12 ![0, 1] bcast_S1x12_S37x12_0_1 : (⟨S1x12, .i32⟩ : BufTy).Contents (Elt F) → (⟨S37x12, .i32⟩ : BufTy).Contents (Elt F)),
    binary main_v38 main_v39 main_v40 (addi : (⟨S37x12, .i32⟩ : BufTy).Contents (Elt F) → (⟨S37x12, .i32⟩ : BufTy).Contents (Elt F) → (⟨S37x12, .i32⟩ : BufTy).Contents (Elt F)),
    nullary main_v41 (iotaInDim S12 32 0),
    unary main_v41 main_v42 (broadcastInDim S12x1 ![0] bcast_S12_S12x1_0 : (⟨S12, .i32⟩ : BufTy).Contents (Elt F) → (⟨S12x1, .i32⟩ : BufTy).Contents (Elt F)),
    nullary main_v43 (iotaInDim S5 32 0),
    unary main_v43 main_v44 (broadcastInDim S1x5 ![1] bcast_S5_S1x5_1 : (⟨S5, .i32⟩ : BufTy).Contents (Elt F) → (⟨S1x5, .i32⟩ : BufTy).Contents (Elt F)),
    unary main_v42 main_v45 (broadcastInDim S12x5 ![0, 1] bcast_S12x1_S12x5_0_1 : (⟨S12x1, .i32⟩ : BufTy).Contents (Elt F) → (⟨S12x5, .i32⟩ : BufTy).Contents (Elt F)),
    unary main_v44 main_v46 (broadcastInDim S12x5 ![0, 1] bcast_S1x5_S12x5_0_1 : (⟨S1x5, .i32⟩ : BufTy).Contents (Elt F) → (⟨S12x5, .i32⟩ : BufTy).Contents (Elt F)),
    binary main_v45 main_v46 main_v47 (addi : (⟨S12x5, .i32⟩ : BufTy).Contents (Elt F) → (⟨S12x5, .i32⟩ : BufTy).Contents (Elt F) → (⟨S12x5, .i32⟩ : BufTy).Contents (Elt F)),
    unary main_v40 main_v48 (broadcastInDim S37x1x12x1 ![0, 2] bcast_S37x12_S37x1x12x1_0_2 : (⟨S37x12, .i32⟩ : BufTy).Contents (Elt F) → (⟨S37x1x12x1, .i32⟩ : BufTy).Contents (Elt F)),
    unary main_v47 main_v49 (broadcastInDim S1x12x1x5 ![1, 3] bcast_S12x5_S1x12x1x5_1_3 : (⟨S12x5, .i32⟩ : BufTy).Contents (Elt F) → (⟨S1x12x1x5, .i32⟩ : BufTy).Contents (Elt F)),
    nullary main_c_3 (constantI S_ 32 0#32),
    unary main_c_3 main_v50 (broadcastInDim S37x1x12x1 ![] bcast_S_S37x1x12x1 : (⟨S_, .i32⟩ : BufTy).Contents (Elt F) → (⟨S37x1x12x1, .i32⟩ : BufTy).Contents (Elt F)),
    binary main_v48 main_v50 main_v51 (cmpi .slt : (⟨S37x1x12x1, .i32⟩ : BufTy).Contents (Elt F) → (⟨S37x1x12x1, .i32⟩ : BufTy).Contents (Elt F) → (⟨S37x1x12x1, .i1⟩ : BufTy).Contents (Elt F)),
    nullary main_c_4 (constantI S_ 32 48#32),
    unary main_c_4 main_v52 (broadcastInDim S37x1x12x1 ![] bcast_S_S37x1x12x1 : (⟨S_, .i32⟩ : BufTy).Contents (Elt F) → (⟨S37x1x12x1, .i32⟩ : BufTy).Contents (Elt F)),
    binary main_v48 main_v52 main_v53 (addi : (⟨S37x1x12x1, .i32⟩ : BufTy).Contents (Elt F) → (⟨S37x1x12x1, .i32⟩ : BufTy).Contents (Elt F) → (⟨S37x1x12x1, .i32⟩ : BufTy).Contents (Elt F)) ]

set_option maxHeartbeats 4000000 in
/-- The rest of that table, and the second argument's patch rows gathered, transposed, flattened. -/
abbrev opsB2 : List (HloOp τ sig (Elt F)) :=
  [ ternary main_v51 main_v53 main_v48 main_v54 (select : (⟨S37x1x12x1, .i1⟩ : BufTy).Contents (Elt F) → (⟨S37x1x12x1, .i32⟩ : BufTy).Contents (Elt F) → (⟨S37x1x12x1, .i32⟩ : BufTy).Contents (Elt F) → (⟨S37x1x12x1, .i32⟩ : BufTy).Contents (Elt F)),
    nullary main_c_5 (constantI S_ 32 0#32),
    unary main_c_5 main_v55 (broadcastInDim S1x12x1x5 ![] bcast_S_S1x12x1x5 : (⟨S_, .i32⟩ : BufTy).Contents (Elt F) → (⟨S1x12x1x5, .i32⟩ : BufTy).Contents (Elt F)),
    binary main_v49 main_v55 main_v56 (cmpi .slt : (⟨S1x12x1x5, .i32⟩ : BufTy).Contents (Elt F) → (⟨S1x12x1x5, .i32⟩ : BufTy).Contents (Elt F) → (⟨S1x12x1x5, .i1⟩ : BufTy).Contents (Elt F)),
    nullary main_c_6 (constantI S_ 32 16#32),
    unary main_c_6 main_v57 (broadcastInDim S1x12x1x5 ![] bcast_S_S1x12x1x5 : (⟨S_, .i32⟩ : BufTy).Contents (Elt F) → (⟨S1x12x1x5, .i32⟩ : BufTy).Contents (Elt F)),
    binary main_v49 main_v57 main_v58 (addi : (⟨S1x12x1x5, .i32⟩ : BufTy).Contents (Elt F) → (⟨S1x12x1x5, .i32⟩ : BufTy).Contents (Elt F) → (⟨S1x12x1x5, .i32⟩ : BufTy).Contents (Elt F)),
    ternary main_v56 main_v58 main_v49 main_v59 (select : (⟨S1x12x1x5, .i1⟩ : BufTy).Contents (Elt F) → (⟨S1x12x1x5, .i32⟩ : BufTy).Contents (Elt F) → (⟨S1x12x1x5, .i32⟩ : BufTy).Contents (Elt F) → (⟨S1x12x1x5, .i32⟩ : BufTy).Contents (Elt F)),
    unary main_v54 main_v60 (broadcastInDim S37x12x12x5 ![0, 1, 2, 3] bcast_S37x1x12x1_S37x12x12x5_0_1_2_3 : (⟨S37x1x12x1, .i32⟩ : BufTy).Contents (Elt F) → (⟨S37x12x12x5, .i32⟩ : BufTy).Contents (Elt F)),
    unary main_v59 main_v61 (broadcastInDim S37x12x12x5 ![0, 1, 2, 3] bcast_S1x12x1x5_S37x12x12x5_0_1_2_3 : (⟨S1x12x1x5, .i32⟩ : BufTy).Contents (Elt F) → (⟨S37x12x12x5, .i32⟩ : BufTy).Contents (Elt F)),
    unary main_v60 main_v62 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    unary main_v61 main_v63 (broadcastInDim S37x12x12x5x1 ![0, 1, 2, 3] bcast_S37x12x12x5_S37x12x12x5x1_0_1_2_3 : (⟨S37x12x12x5, .i32⟩ : BufTy).Contents (Elt F) → (⟨S37x12x12x5x1, .i32⟩ : BufTy).Contents (Elt F)),
    binary main_v62 main_v63 main_v64 ((fun a b => concatenate S37x12x12x5x2 4 [⟨S37x12x12x5x1, a⟩, ⟨S37x12x12x5x1, b⟩] concatenates_S37x12x12x5x1_S37x12x12x5x1_S37x12x12x5x2_d4) : (⟨S37x12x12x5x1, .i32⟩ : BufTy).Contents (Elt F) → (⟨S37x12x12x5x1, .i32⟩ : BufTy).Contents (Elt F) → (⟨S37x12x12x5x2, .i32⟩ : BufTy).Contents (Elt F)),
    binary main_arg1 main_v64 main_v65 ((fun x i => Host.gather gather_S8x48x16x5_S37x12x12x5x2_S8x37x12x12x5x5_05_12_n_n_12_4_8115 x i) : (⟨S8x48x16x5, .f32⟩ : BufTy).Contents (Elt F) → (⟨S37x12x12x5x2, .i32⟩ : BufTy).Contents (Elt F) → (⟨S8x37x12x12x5x5, .f32⟩ : BufTy).Contents (Elt F)),
    unary main_v65 main_v66 ((transpose S8x5x37x12x12x5 [0, 5, 1, 2, 3, 4] · transposes_S8x37x12x12x5x5_S8x5x37x12x12x5_0_5_1_2_3_4) : (⟨S8x37x12x12x5x5, .f32⟩ : BufTy).Contents (Elt F) → (⟨S8x5x37x12x12x5, .f32⟩ : BufTy).Contents (Elt F)),
    reshape main_v66 main_v67 rfl shapeCasts_S8x5x37x12x12x5_S8x2220x60 ]

set_option maxHeartbeats 4000000 in
/-- The first array of patch rows normalised: the mean column, the standard deviation (the outlined functions' operations over the first call's buffers), the centring and the division. -/
abbrev opsC : List (HloOp τ sig (Elt F)) :=
  [ nullary main_cst (constant S_ .f32 0x00000000#32),
    binary main_v33 main_cst main_v68 ((fun x v => Host.reduceAdd x v reducesTo_S8x2220x60_S8x2220_d2 h_S_) : (⟨S8x2220x60, .f32⟩ : BufTy).Contents (Elt F) → (⟨S_, .f32⟩ : BufTy).Contents (Elt F) → (⟨S8x2220, .f32⟩ : BufTy).Contents (Elt F)),
    unary main_v68 main_v69 (broadcastInDim S8x2220x1 ![0, 1] bcast_S8x2220_S8x2220x1_0_1 : (⟨S8x2220, .f32⟩ : BufTy).Contents (Elt F) → (⟨S8x2220x1, .f32⟩ : BufTy).Contents (Elt F)),
    nullary main_cst_7 (constant S_ .f32 0x42700000#32),
    unary main_cst_7 main_v70 (broadcastInDim S8x2220x1 ![] bcast_S_S8x2220x1 : (⟨S_, .f32⟩ : BufTy).Contents (Elt F) → (⟨S8x2220x1, .f32⟩ : BufTy).Contents (Elt F)),
    binary main_v69 main_v70 main_v71 (Host.divf : (⟨S8x2220x1, .f32⟩ : BufTy).Contents (Elt F) → (⟨S8x2220x1, .f32⟩ : BufTy).Contents (Elt F) → (⟨S8x2220x1, .f32⟩ : BufTy).Contents (Elt F)),
    nullary main_c_8 (constantI S_ 32 0#32),
    TRef.nullary main_call0.call0.cst (constant S_ .f32 0x00000000#32),
    TRef.binary (.of main_v33) main_call0.call0.cst main_call0.call0.v0 (fun x v => Host.reduceAdd x v reducesTo_S8x2220x60_S8x2220_d2 h_S_),
    TRef.unary main_call0.call0.v0 main_call0.call0.v1 (broadcastInDim S8x2220x1 ![0, 1] bcast_S8x2220_S8x2220x1_0_1),
    TRef.nullary main_call0.call0.cst_0 (constant S_ .f32 0x42700000#32),
    TRef.unary main_call0.call0.cst_0 main_call0.call0.v2 (broadcastInDim S8x2220x1 ![] bcast_S_S8x2220x1),
    TRef.binary main_call0.call0.v1 main_call0.call0.v2 main_call0.call0.v3 Host.divf,
    TRef.unary main_call0.call0.v3 main_call0.call0.v4 (broadcastInDim S8x2220x60 ![0, 1, 2] bcast_S8x2220x1_S8x2220x60_0_1_2),
    TRef.binary (.of main_v33) main_call0.call0.v4 main_call0.call0.v5 subf,
    TRef.binary main_call0.call0.v5 main_call0.call0.v5 main_call0.call0.v6 mulf,
    TRef.unary (.of main_c_8) main_call0.call0.v7 (sitofp (F := F) .f32),
    TRef.nullary main_call0.call0.cst_1 (constant S_ .f32 0x42700000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x2220x60_S8x2220_d2 h_S_),
    TRef.unary main_call0.call0.v9 main_call0.call0.v10 (broadcastInDim S8x2220x1 ![0, 1] bcast_S8x2220_S8x2220x1_0_1),
    TRef.unary main_call0.call0.v8 main_call0.call0.v11 (broadcastInDim S8x2220x1 ![] bcast_S_S8x2220x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf (F := F) .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x2220x1 ![] bcast_S_S8x2220x1),
    TRef.ternary main_call0.call0.v13 main_call0.call0.v12 main_call0.call0.call0.v1 main_call0.call0.call0.v2 (fun p a b => select (broadcastInDim S8x2220x1 ![] bcast_S_S8x2220x1 p) a b),
    TRef.unary main_call0.call0.call0.v2 main_call0.v1 Host.sqrt,
    unary main_v71 main_v73 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    binary main_v33 main_v73 main_v74 (subf : (⟨S8x2220x60, .f32⟩ : BufTy).Contents (Elt F) → (⟨S8x2220x60, .f32⟩ : BufTy).Contents (Elt F) → (⟨S8x2220x60, .f32⟩ : BufTy).Contents (Elt F)),
    unary main_v72 main_v75 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    binary main_v74 main_v75 main_v76 (Host.divf : (⟨S8x2220x60, .f32⟩ : BufTy).Contents (Elt F) → (⟨S8x2220x60, .f32⟩ : BufTy).Contents (Elt F) → (⟨S8x2220x60, .f32⟩ : BufTy).Contents (Elt F)) ]

set_option maxHeartbeats 4000000 in
/-- The second array of patch rows normalised likewise (over the second call's buffers), the batched product of the two and its reshape. -/
abbrev opsD : List (HloOp τ sig (Elt F)) :=
  [ nullary main_cst_9 (constant S_ .f32 0x00000000#32),
    binary main_v67 main_cst_9 main_v77 ((fun x v => Host.reduceAdd x v reducesTo_S8x2220x60_S8x2220_d2 h_S_) : (⟨S8x2220x60, .f32⟩ : BufTy).Contents (Elt F) → (⟨S_, .f32⟩ : BufTy).Contents (Elt F) → (⟨S8x2220, .f32⟩ : BufTy).Contents (Elt F)),
    unary main_v77 main_v78 (broadcastInDim S8x2220x1 ![0, 1] bcast_S8x2220_S8x2220x1_0_1 : (⟨S8x2220, .f32⟩ : BufTy).Contents (Elt F) → (⟨S8x2220x1, .f32⟩ : BufTy).Contents (Elt F)),
    nullary main_cst_10 (constant S_ .f32 0x42700000#32),
    unary main_cst_10 main_v79 (broadcastInDim S8x2220x1 ![] bcast_S_S8x2220x1 : (⟨S_, .f32⟩ : BufTy).Contents (Elt F) → (⟨S8x2220x1, .f32⟩ : BufTy).Contents (Elt F)),
    binary main_v78 main_v79 main_v80 (Host.divf : (⟨S8x2220x1, .f32⟩ : BufTy).Contents (Elt F) → (⟨S8x2220x1, .f32⟩ : BufTy).Contents (Elt F) → (⟨S8x2220x1, .f32⟩ : BufTy).Contents (Elt F)),
    nullary main_c_11 (constantI S_ 32 0#32),
    TRef.nullary main_call1.call0.cst (constant S_ .f32 0x00000000#32),
    TRef.binary (.of main_v67) main_call1.call0.cst main_call1.call0.v0 (fun x v => Host.reduceAdd x v reducesTo_S8x2220x60_S8x2220_d2 h_S_),
    TRef.unary main_call1.call0.v0 main_call1.call0.v1 (broadcastInDim S8x2220x1 ![0, 1] bcast_S8x2220_S8x2220x1_0_1),
    TRef.nullary main_call1.call0.cst_0 (constant S_ .f32 0x42700000#32),
    TRef.unary main_call1.call0.cst_0 main_call1.call0.v2 (broadcastInDim S8x2220x1 ![] bcast_S_S8x2220x1),
    TRef.binary main_call1.call0.v1 main_call1.call0.v2 main_call1.call0.v3 Host.divf,
    TRef.unary main_call1.call0.v3 main_call1.call0.v4 (broadcastInDim S8x2220x60 ![0, 1, 2] bcast_S8x2220x1_S8x2220x60_0_1_2),
    TRef.binary (.of main_v67) main_call1.call0.v4 main_call1.call0.v5 subf,
    TRef.binary main_call1.call0.v5 main_call1.call0.v5 main_call1.call0.v6 mulf,
    TRef.unary (.of main_c_11) main_call1.call0.v7 (sitofp (F := F) .f32),
    TRef.nullary main_call1.call0.cst_1 (constant S_ .f32 0x42700000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8x2220x60_S8x2220_d2 h_S_),
    TRef.unary main_call1.call0.v9 main_call1.call0.v10 (broadcastInDim S8x2220x1 ![0, 1] bcast_S8x2220_S8x2220x1_0_1),
    TRef.unary main_call1.call0.v8 main_call1.call0.v11 (broadcastInDim S8x2220x1 ![] bcast_S_S8x2220x1),
    TRef.binary main_call1.call0.v10 main_call1.call0.v11 main_call1.call0.v12 Host.divf,
    TRef.nullary main_call1.call0.cst_3 (constant S_ .f32 0x00000000#32),
    TRef.binary main_call1.call0.v8 main_call1.call0.cst_3 main_call1.call0.v13 (cmpf (F := F) .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S8x2220x1 ![] bcast_S_S8x2220x1),
    TRef.ternary main_call1.call0.v13 main_call1.call0.v12 main_call1.call0.call0.v1 main_call1.call0.call0.v2 (fun p a b => select (broadcastInDim S8x2220x1 ![] bcast_S_S8x2220x1 p) a b),
    TRef.unary main_call1.call0.call0.v2 main_call1.v1 Host.sqrt,
    unary main_v80 main_v82 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    binary main_v67 main_v82 main_v83 (subf : (⟨S8x2220x60, .f32⟩ : BufTy).Contents (Elt F) → (⟨S8x2220x60, .f32⟩ : BufTy).Contents (Elt F) → (⟨S8x2220x60, .f32⟩ : BufTy).Contents (Elt F)),
    unary main_v81 main_v84 (broadcastInDim S8x2220x60 ![0, 1, 2] bcast_S8x2220x1_S8x2220x60_0_1_2 : (⟨S8x2220x1, .f32⟩ : BufTy).Contents (Elt F) → (⟨S8x2220x60, .f32⟩ : BufTy).Contents (Elt F)),
    binary main_v83 main_v84 main_v85 (Host.divf : (⟨S8x2220x60, .f32⟩ : BufTy).Contents (Elt F) → (⟨S8x2220x60, .f32⟩ : BufTy).Contents (Elt F) → (⟨S8x2220x60, .f32⟩ : BufTy).Contents (Elt F)),
    binary main_v85 main_v76 main_v86 ((fun l r => Host.dotGeneral dot_S8x2220x60_S8x2220x60_S8x2220x2220_2_2_1_1_0_0 none l r) : (⟨S8x2220x60, .f32⟩ : BufTy).Contents (Elt F) → (⟨S8x2220x60, .f32⟩ : BufTy).Contents (Elt F) → (⟨S8x2220x2220, .f32⟩ : BufTy).Contents (Elt F)),
    reshape main_v86 main_v87 rfl shapeCasts_S8x2220x2220_S296x37x12x300 ]

theorem opsA_sub : (opsA : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., reshape_bufs_sub ..⟩

theorem opsA_fresh : ∀ op ∈ (opsA : List (HloOp τ sig (Elt F))), op.fresh = ∅ := by
  intro _ h; (repeat (cases h with | head => rfl | tail _ h => ?_)); exact nomatch h

theorem opsB1_sub : (opsB1 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem opsB1_fresh : ∀ op ∈ (opsB1 : List (HloOp τ sig (Elt F))), op.fresh = ∅ := by
  intro _ h; (repeat (cases h with | head => rfl | tail _ h => ?_)); exact nomatch h

theorem opsB2_sub : (opsB2 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., reshape_bufs_sub ..⟩

theorem opsB2_fresh : ∀ op ∈ (opsB2 : List (HloOp τ sig (Elt F))), op.fresh = ∅ := by
  intro _ h; (repeat (cases h with | head => rfl | tail _ h => ?_)); exact nomatch h

theorem opsC_sub : (opsC : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., binary_bufs_sub ..⟩

theorem opsC_fresh : ∀ op ∈ (opsC : List (HloOp τ sig (Elt F))), op.fresh = ∅ := by
  intro _ h; (repeat (cases h with | head => rfl | tail _ h => ?_)); exact nomatch h

theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., binary_bufs_sub .., binary_bufs_sub .., reshape_bufs_sub ..⟩

theorem opsD_fresh : ∀ op ∈ (opsD : List (HloOp τ sig (Elt F))), op.fresh = ∅ := by
  intro _ h; (repeat (cases h with | head => rfl | tail _ h => ?_)); exact nomatch h

/-- @main's operations, in order. -/
abbrev ops : List (HloOp τ sig (Elt F)) := (opsA ++ opsB1) ++ (opsB2 ++ (opsC ++ opsD))

set_option maxRecDepth 8192 in
theorem main_part0_eq (c : Dev nD) : main_part0 (F := F) c = seq (opsA ++ opsB1) := by chain_rfl

set_option maxRecDepth 8192 in
theorem main_part1_eq (c : Dev nD) : main_part1 (F := F) c = seq (opsB2 ++ (opsC ++ opsD)) := by chain_rfl

/-- @main is that straight line: its two windows of statements one after the other. -/
theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with (h | h) | h | h | h
    exacts [List.forall_iff_forall_mem.mp opsA_sub op h, List.forall_iff_forall_mem.mp opsB1_sub op h,
      List.forall_iff_forall_mem.mp opsB2_sub op h, List.forall_iff_forall_mem.mp opsC_sub op h,
      List.forall_iff_forall_mem.mp opsD_sub op h]

theorem ops_fresh : ∀ op ∈ (ops : List (HloOp τ sig (Elt F))), op.fresh = ∅ := by
  intro op h
  simp only [ops, List.mem_append] at h
  rcases h with (h | h) | h | h | h
  exacts [opsA_fresh op h, opsB1_fresh op h, opsB2_fresh op h, opsC_fresh op h, opsD_fresh op h]

/-- What the buffers hold after @main, chunk by chunk. -/
theorem after_ops (V : Valuation τ sig (Elt F)) :
    after ops V = after opsD (after opsC (after opsB2 (after opsB1 (after opsA V)))) := by
  simp only [ops, StableHlo.after_append]

end Cert.ReferenceIdeal.Hand

end
-- ==== Proof.RefRun.lean ====
/-
  The run of the reference program read back. After the 38 operations that build them the first argument's patch rows
  are `patch` of that argument, and likewise the second's; after the 35 that normalise the first array it is
  `normalize` of it, whatever the buffers held before; after the last 37 the result buffer is the reshaped batched
  product of the second array normalised and the first. Put together: every weakly fair execution of @main terminates
  with the result buffer at `out` of the two arguments' launch contents and the arguments unchanged.
-/
import proofs.«174513_j88252987998983_1_alg».proof.Proof.RefRunOps
import proofs.«174513_j88252987998983_1_alg».proof.Proof.RefTerm

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-! ## The first argument's patch rows -/

set_option maxRecDepth 8192 in
set_option maxHeartbeats 4000000 in
theorem afterA_v33 (V : Valuation τ sig (Elt F)) :
    after opsA V (main_v33 : DevRef τ sig) = patch (V (main_arg0 : DevRef τ sig)) := by
  after_results_simp <;> rfl

set_option maxRecDepth 8192 in
set_option maxHeartbeats 4000000 in
theorem afterA_arg0 (V : Valuation τ sig (Elt F)) :
    after opsA V (main_arg0 : DevRef τ sig) = V (main_arg0 : DevRef τ sig) := by
  after_results_simp

set_option maxRecDepth 8192 in
set_option maxHeartbeats 4000000 in
theorem afterA_arg1 (V : Valuation τ sig (Elt F)) :
    after opsA V (main_arg1 : DevRef τ sig) = V (main_arg1 : DevRef τ sig) := by
  after_results_simp

/-! ## The second argument's patch rows -/

set_option maxRecDepth 8192 in
set_option maxHeartbeats 4000000 in
theorem afterB_v67 (V : Valuation τ sig (Elt F)) :
    after opsB2 (after opsB1 V) (main_v67 : DevRef τ sig) = patch (V (main_arg1 : DevRef τ sig)) := by
  after_results_simp <;> rfl

set_option maxRecDepth 8192 in
set_option maxHeartbeats 4000000 in
theorem afterB_v33 (V : Valuation τ sig (Elt F)) :
    after opsB2 (after opsB1 V) (main_v33 : DevRef τ sig) = V (main_v33 : DevRef τ sig) := by
  after_results_simp

set_option maxRecDepth 8192 in
set_option maxHeartbeats 4000000 in
theorem afterB_arg0 (V : Valuation τ sig (Elt F)) :
    after opsB2 (after opsB1 V) (main_arg0 : DevRef τ sig) = V (main_arg0 : DevRef τ sig) := by
  after_results_simp

set_option maxRecDepth 8192 in
set_option maxHeartbeats 4000000 in
theorem afterB_arg1 (V : Valuation τ sig (Elt F)) :
    after opsB2 (after opsB1 V) (main_arg1 : DevRef τ sig) = V (main_arg1 : DevRef τ sig) := by
  after_results_simp

/-! ## The first array normalised -/

set_option maxRecDepth 8192 in
set_option maxHeartbeats 4000000 in
theorem afterC_v76 (V : Valuation τ sig (Elt F)) :
    after opsC V (main_v76 : DevRef τ sig) = normalize (V (main_v33 : DevRef τ sig)) := by
  after_results_simp <;> (try simp only [TRef.ofBuf, TRef.toBuf, cast_eq]) <;> rfl

set_option maxRecDepth 8192 in
set_option maxHeartbeats 4000000 in
theorem afterC_v67 (V : Valuation τ sig (Elt F)) :
    after opsC V (main_v67 : DevRef τ sig) = V (main_v67 : DevRef τ sig) := by
  after_results_simp

set_option maxRecDepth 8192 in
set_option maxHeartbeats 4000000 in
theorem afterC_arg0 (V : Valuation τ sig (Elt F)) :
    after opsC V (main_arg0 : DevRef τ sig) = V (main_arg0 : DevRef τ sig) := by
  after_results_simp

set_option maxRecDepth 8192 in
set_option maxHeartbeats 4000000 in
theorem afterC_arg1 (V : Valuation τ sig (Elt F)) :
    after opsC V (main_arg1 : DevRef τ sig) = V (main_arg1 : DevRef τ sig) := by
  after_results_simp

/-! ## The second array normalised, the product, the reshape -/

set_option maxRecDepth 8192 in
set_option maxHeartbeats 4000000 in
theorem afterD_v87 (V : Valuation τ sig (Elt F)) :
    after opsD V (main_v87 : DevRef τ sig)
      = shapeCast S296x37x12x300
          (Host.dotGeneral dot_S8x2220x60_S8x2220x60_S8x2220x2220_2_2_1_1_0_0 none
            (normalize (V (main_v67 : DevRef τ sig))) (V (main_v76 : DevRef τ sig)))
          shapeCasts_S8x2220x2220_S296x37x12x300 := by
  after_results_simp <;> (try simp only [TRef.ofBuf, TRef.toBuf, cast_eq]) <;> rfl

set_option maxRecDepth 8192 in
set_option maxHeartbeats 4000000 in
theorem afterD_arg0 (V : Valuation τ sig (Elt F)) :
    after opsD V (main_arg0 : DevRef τ sig) = V (main_arg0 : DevRef τ sig) := by
  after_results_simp

set_option maxRecDepth 8192 in
set_option maxHeartbeats 4000000 in
theorem afterD_arg1 (V : Valuation τ sig (Elt F)) :
    after opsD V (main_arg1 : DevRef τ sig) = V (main_arg1 : DevRef τ sig) := by
  after_results_simp

/-! ## All of @main -/

/-- The result buffer after @main: `out` of the two arguments. -/
theorem after_v87 (V : Valuation τ sig (Elt F)) :
    after ops V (main_v87 : DevRef τ sig) = out (V (main_arg0 : DevRef τ sig)) (V (main_arg1 : DevRef τ sig)) := by
  rw [after_ops, afterD_v87, afterC_v76, afterC_v67, afterB_v67, afterB_v33, afterA_v33, afterA_arg1]
  rfl

theorem after_arg0 (V : Valuation τ sig (Elt F)) :
    after ops V (main_arg0 : DevRef τ sig) = V (main_arg0 : DevRef τ sig) := by
  rw [after_ops, afterD_arg0, afterC_arg0, afterB_arg0, afterA_arg0]

theorem after_arg1 (V : Valuation τ sig (Elt F)) :
    after ops V (main_arg1 : DevRef τ sig) = V (main_arg1 : DevRef τ sig) := by
  rw [after_ops, afterD_arg1, afterC_arg1, afterB_arg1, afterA_arg1]

/-- On every device, for any float values, from any memory with zero counters: every weakly fair execution of @main
    terminates with the result at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v87).trans (after_v87 (launchContents m c)),
      (h c main_arg0).trans (after_arg0 (launchContents m c)),
      (h c main_arg1).trans (after_arg1 (launchContents m c))⟩)
    (run_seq scopedRefs_eq scopedSems_eq defs main (fun _ => ops) main_eq (fun _ => ops_sub) m ρ (fun _ => ops_fresh))

end Cert.ReferenceIdeal.Hand

end
-- ==== Proof.RefValue.lean ====
/-
  The reference's correlation term read at an index, over the extended reals.

  Every stage of the reference's term is one layout or pointwise operation, so each is read at an index written by its
  coordinates: a row's sum over its 60 entries from the zero scalar is the sum of the row; the column of means at
  (b, n, ·) is the mean of row n of image b; the centred array at (b, n, k) is that row's deviation at k; the divisor
  60 - 0 is sixty and is positive, so the select keeps the quotient and the column of variances at (b, n, ·) is the
  row's variance; the normalised array at (b, n, k) is the row's unit row at k; and the batched product contracted
  over the entries holds at (b, n, m) the dot product of the unit rows of patch n of the first array and patch m of
  the second. No algebra: both sides are the same operations in the same order.
-/
import proofs.«174513_j88252987998983_1_alg».proof.Proof.RefTerm
import proofs.«174513_j88252987998983_1_alg».proof.Proof.Spec
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal Cert.ReferenceIdeal.Facts₀

/-- The sum of a row from the zero scalar is the sum of its 60 entries. -/
theorem rowSum_apply (x : FVec Ideal S8x2220x60 .f32) (b : Fin 8) (n : Fin 2220) :
    Host.reduceAdd (F := Ideal) (s := S8x2220x60) (φ := .f32) (t := S8x2220) (u := S_) x (zeroS (F := Ideal))
      reducesTo_S8x2220x60_S8x2220_d2 h_S_ (ix2 b n) = ∑ k : Fin 60, x (ix3 b n k) := by
  have hR : S8x2220x60.Reduces [2] S8x2220 := by decide
  rw [hostReduceAdd_apply, Ideal.hostReduceAdd_single reducesTo_S8x2220x60_S8x2220_d2 hR]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl
  | ⟨2, _⟩ => rfl

/-- The column of means at (b, n, ·) is the mean of row n of image b. -/
theorem meanCol_apply (p : (⟨S8x2220x60, .f32⟩ : BufTy).Contents (Elt Ideal)) (b : Fin 8) (n : Fin 2220) (u : Fin 1) :
    meanCol p (ix3 b n u) = Corr.mean (Corr.row p b n) := by
  unfold meanCol
  rw [hostDivf_apply, broadcastInDim_apply _ _ _ (ix3 b n u) (ix2 b n) (fun a => ?_), broadcastInDim_scalar_apply, rowSum_apply]
  · rfl
  · match a with
    | ⟨0, _⟩ => rfl
    | ⟨1, _⟩ => rfl

/-- The centred array at (b, n, k) is the row's deviation at k. -/
theorem centred_apply (p : (⟨S8x2220x60, .f32⟩ : BufTy).Contents (Elt Ideal)) (b : Fin 8) (n : Fin 2220) (k : Fin 60) :
    centred p (ix3 b n k) = Corr.dev (Corr.row p b n) k := by
  unfold centred
  rw [subf_apply, broadcastInDim_apply _ _ _ (ix3 b n k) (ix3 b n (0 : Fin 1)) (fun a => ?_), meanCol_apply]
  · rfl
  · match a with
    | ⟨0, _⟩ => rfl
    | ⟨1, _⟩ => rfl
    | ⟨2, _⟩ => rfl

/-- The divisor, sixty less the integer zero converted, is sixty. -/
theorem divisor_apply (i : S_.Idx) : divisor (F := Ideal) i = Corr.sixty := by
  show Corr.sixty - (((0#32 : BitVec 32).toInt : ℝ) : EReal) = Corr.sixty
  rw [show (0#32 : BitVec 32).toInt = 0 from by decide]
  simp

/-- The divisor is greater than zero: the comparison's bit is 1. -/
theorem divisor_pos_apply (i : S_.Idx) :
    cmpf (F := Ideal) (s := S_) (φ := .f32) .ogt (divisor (F := Ideal)) (zeroS (F := Ideal)) i = 1#1 := by
  rw [cmpf_apply, Ideal.cmpf_def, divisor_apply]
  show Ideal.cmp .ogt Corr.sixty (Ideal.ofBits .f32 0x00000000#32) = 1#1
  rw [Ideal.ofBits_zero_f32]
  unfold Ideal.cmp
  simp [Corr.sixty_pos]

/-- The column of variances at (b, n, ·) is the variance of row n of image b. -/
theorem varCol_apply (p : (⟨S8x2220x60, .f32⟩ : BufTy).Contents (Elt Ideal)) (b : Fin 8) (n : Fin 2220) (u : Fin 1) :
    varCol p (ix3 b n u) = Corr.var (Corr.row p b n) := by
  unfold varCol
  rw [select_apply, broadcastInDim_scalar_apply, divisor_pos_apply, select_one, hostDivf_apply,
    broadcastInDim_apply _ _ _ (ix3 b n u) (ix2 b n) (fun a => ?_), broadcastInDim_scalar_apply, divisor_apply, rowSum_apply]
  · unfold Corr.var
    congr 1
    refine Finset.sum_congr rfl fun k _ => ?_
    rw [mulf_apply, centred_apply]
  · match a with
    | ⟨0, _⟩ => rfl
    | ⟨1, _⟩ => rfl

/-- The normalised array at (b, n, k) is the row's unit row at k. -/
theorem normalize_apply (p : (⟨S8x2220x60, .f32⟩ : BufTy).Contents (Elt Ideal)) (b : Fin 8) (n : Fin 2220) (k : Fin 60) :
    normalize p (ix3 b n k) = Corr.unit (Corr.row p b n) k := by
  unfold normalize
  rw [hostDivf_apply, centred_apply, broadcastInDim_apply _ _ _ (ix3 b n k) (ix3 b n (0 : Fin 1)) (fun a => ?_)]
  · show Ideal.div _ (Ideal.sqrt (varCol p (ix3 b n (0 : Fin 1)))) = _
    rw [varCol_apply]
    rfl
  · match a with
    | ⟨0, _⟩ => rfl
    | ⟨1, _⟩ => rfl
    | ⟨2, _⟩ => rfl

/-! The operand indices the product's record computes at a result index and a contraction position, coordinate by
    coordinate: the left one is (image, result row, position), the right one (image, result column, position). -/

local notation "D" => dot_S8x2220x60_S8x2220x60_S8x2220x2220_2_2_1_1_0_0

theorem lhs_0 (j : S8x2220x2220.Idx) (q : (D).contr.Idx) : ((D).lhsIdx j q 0).val = (j 0).val := by
  unfold DotDims.lhsIdx
  rw [dif_pos (show (0 : Fin S8x2220x60.rank) ∈ (D).lhsBatch from List.mem_singleton.2 rfl)]
  rfl

theorem lhs_1 (j : S8x2220x2220.Idx) (q : (D).contr.Idx) : ((D).lhsIdx j q 1).val = (j 1).val := by
  unfold DotDims.lhsIdx
  rw [dif_neg (show ¬(1 : Fin S8x2220x60.rank) ∈ (D).lhsBatch from by decide),
    dif_pos (show (1 : Fin S8x2220x60.rank) ∈ (D).lhsNonContracting from List.mem_singleton.2 rfl)]
  rfl

theorem lhs_2 (j : S8x2220x2220.Idx) (q : (D).contr.Idx) : ((D).lhsIdx j q 2).val = (q ⟨0, Nat.one_pos⟩).val :=
  (D).lhsIdx_val_of_single rfl j q

theorem rhs_0 (j : S8x2220x2220.Idx) (q : (D).contr.Idx) : ((D).rhsIdx j q 0).val = (j 0).val := by
  unfold DotDims.rhsIdx
  rw [dif_pos (show (0 : Fin S8x2220x60.rank) ∈ (D).rhsBatch from List.mem_singleton.2 rfl)]
  rfl

theorem rhs_1 (j : S8x2220x2220.Idx) (q : (D).contr.Idx) : ((D).rhsIdx j q 1).val = (j 2).val := by
  unfold DotDims.rhsIdx
  rw [dif_neg (show ¬(1 : Fin S8x2220x60.rank) ∈ (D).rhsBatch from by decide),
    dif_pos (show (1 : Fin S8x2220x60.rank) ∈ (D).rhsNonContracting from List.mem_singleton.2 rfl)]
  rfl

theorem rhs_2 (j : S8x2220x2220.Idx) (q : (D).contr.Idx) : ((D).rhsIdx j q 2).val = (q ⟨0, Nat.one_pos⟩).val :=
  (D).rhsIdx_val_of_single rfl j q

/-- The product at (b, n, m) is the dot product of the unit rows of patch n of the first array and patch m of the second. -/
theorem corrOf_apply (p2 p1 : (⟨S8x2220x60, .f32⟩ : BufTy).Contents (Elt Ideal)) (b : Fin 8) (n m : Fin 2220) :
    corrOf (F := Ideal) p2 p1 (ix3 b n m) = Corr.dot (Corr.row p2 b n) (Corr.row p1 b m) := by
  unfold corrOf
  simp only [Host.dotGeneral]
  rw [Ideal.dotGeneral_apply, ← Equiv.sum_comp (contrEquiv1 (D) 60 rfl rfl).symm]
  unfold Corr.dot
  refine Finset.sum_congr rfl fun k _ => ?_
  have hk := contrEquiv1_symm_val (D) 60 rfl rfl k
  have el : (D).lhsIdx (ix3 b n m) ((contrEquiv1 (D) 60 rfl rfl).symm k) = ix3 b n k :=
    funext fun a => Fin.ext (by
      match a with
      | ⟨0, _⟩ => exact lhs_0 _ _
      | ⟨1, _⟩ => exact lhs_1 _ _
      | ⟨2, _⟩ => exact (lhs_2 _ _).trans hk)
  have er : (D).rhsIdx (ix3 b n m) ((contrEquiv1 (D) 60 rfl rfl).symm k) = ix3 b m k :=
    funext fun a => Fin.ext (by
      match a with
      | ⟨0, _⟩ => exact rhs_0 _ _
      | ⟨1, _⟩ => exact rhs_1 _ _
      | ⟨2, _⟩ => exact (rhs_2 _ _).trans hk)
  rw [el, er, normalize_apply, normalize_apply]

/-- The reference's correlation term is the correlation of the unit-normalised patch rows. -/
theorem corrOf_eq (p2 p1 : (⟨S8x2220x60, .f32⟩ : BufTy).Contents (Elt Ideal)) :
    corrOf (F := Ideal) p2 p1 = Cert.Corr.corr p2 p1 := by
  funext j
  obtain ⟨b, n, m, rfl⟩ : ∃ (b : Fin 8) (n : Fin 2220) (m : Fin 2220), j = ix3 b n m := ⟨j 0, j 1, j 2, eq_ix3 j⟩
  rw [corrOf_apply, Corr.corr_apply]

end Cert.ReferenceIdeal.Hand

end
-- ==== Proof.lean ====
/-
  A correlation layer: every 12 × 5 patch of every channel of two batches of images [8, 48, 16, 5] is centred by its
  mean and divided by its population standard deviation, and the result holds, per image, the dot products of every
  normalised patch of the second batch with every normalised patch of the first, [8, 2220, 2220] reshaped to
  [296, 37, 12, 300].

  The kernel extracts the patch rows on the host, pads the first batch's from 2220 to 2560 rows per image, and at grid
  point (image, column block) normalises all 2220 rows of the second batch and 512 rows of the padded first batch in
  VMEM and multiplies them on the MXU; the host drops the padded columns. The reference extracts the same patch rows
  with the same host operations, normalises them with jnp's mean and standard deviation (whose variance divides by
  `60 - 0` and is selected only because that divisor is positive) and multiplies with one batched product.

  At the ideal instance both are the SAME operations on each patch row, in the same order — sum, quotient by the word
  that denotes 60, difference, square, sum, quotient, square root, quotient, then a sum of 60 products — so the claim
  needs no algebra on the extended reals and never opens the precondition: the row-wise function is stated once
  (Proof/Spec.lean), the kernel's stored block is that function of its loaded blocks (Proof/KerPayload.lean), the
  blocks tile the padded output (Proof/KerBlocks.lean), the staged arrays are the patch rows and the kept columns read
  unpadded rows (Proof/KerPrefix.lean, Proof/KerTail.lean, Proof/KerRun.lean); the reference's @main is its list of
  host operations with the called functions written out (Proof/RefRunOps.lean), read back to one term
  (Proof/RefTerm.lean, Proof/RefRun.lean) which is the same function index by index (Proof/RefValue.lean). The two
  kernels' frames are the generated ones; the reference's frame is its run with the result dropped; the ideal pass
  rewrote nothing, so the idealization is sanctioned trivially.
-/
import proofs.«174513_j88252987998983_1_alg».proof.Defs
import proofs.«174513_j88252987998983_1_alg».proof.Proof.Gen.Kernel
import proofs.«174513_j88252987998983_1_alg».proof.Proof.Gen.Kernel.Skeleton
import proofs.«174513_j88252987998983_1_alg».proof.Proof.Gen.Kernel.Launch
import proofs.«174513_j88252987998983_1_alg».proof.Proof.Gen.Kernel.Points
import proofs.«174513_j88252987998983_1_alg».proof.Proof.Gen.Kernel.Frame
import proofs.«174513_j88252987998983_1_alg».proof.Proof.Gen.KernelIdeal
import proofs.«174513_j88252987998983_1_alg».proof.Proof.Gen.KernelIdeal.Skeleton
import proofs.«174513_j88252987998983_1_alg».proof.Proof.Gen.KernelIdeal.Launch
import proofs.«174513_j88252987998983_1_alg».proof.Proof.Gen.KernelIdeal.Points
import proofs.«174513_j88252987998983_1_alg».proof.Proof.Gen.KernelIdeal.Frame
import proofs.«174513_j88252987998983_1_alg».proof.Proof.Gen.ReferenceIdeal
import proofs.«174513_j88252987998983_1_alg».proof.Proof.Gen.Pre_finite_inputs
import proofs.«174513_j88252987998983_1_alg».proof.Proof.KerRun
import proofs.«174513_j88252987998983_1_alg».proof.Proof.RefRun
import proofs.«174513_j88252987998983_1_alg».proof.Proof.RefValue
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run read back, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments both programs end with the reshaped correlation array of the arguments'
    patch rows: the kernel's by its run, the reference's because its term is that array index by index. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  unfold Cert.ReferenceIdeal.Hand.out Cert.KernelIdeal.Hand.result
  rw [Cert.ReferenceIdeal.Hand.corrOf_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
